-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000 : Shape := ⟨1, ![4000000]⟩
abbrev S128 : Shape := ⟨1, ![128]⟩
abbrev S4 : Shape := ⟨1, ![4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S128 : S_.BroadcastsInDim S128 (![] : Fin 0 → Fin S128.rank)
  reducesTo_S128_S_d0 : S128.ReducesTo [0] S_
  bcast_S_S4 : S_.BroadcastsInDim S4 (![] : Fin 0 → Fin S4.rank)
  reducesTo_S4_S_d0 : S4.ReducesTo [0] S_
  bcast_S_S4000000 : S_.BroadcastsInDim S4000000 (![] : Fin 0 → Fin S4000000.rank)
  reducesTo_S4000000_S_d0 : S4000000.ReducesTo [0] S_

variable [Facts]

def fn_part2 {F : FTy → Type} [FloatOps F] (main_arg3 : IVec S4000000 32) (main_v28 : IVec S_ 1) (main_v33 : IVec S4000000 1) : IVec S_ 1 :=
  let main_c_12 : IVec S_ 1 := constantI S_ 1 1#1
  let main_v34 : IVec S_ 1 := (fun x v => Host.reduce IntOp.andi x v reducesTo_S4000000_S_d0 h_S_) main_v33 main_c_12
  let main_v35 : IVec S_ 1 := andi main_v28 main_v34
  let main_c_13 : IVec S_ 32 := constantI S_ 32 0#32
  let main_v36 : IVec S4000000 32 := broadcastInDim S4000000 ![] bcast_S_S4000000 main_c_13
  let main_v37 : IVec S4000000 1 := cmpi .sge main_arg3 main_v36
  let main_c_14 : IVec S_ 32 := constantI S_ 32 2097152#32
  let main_v38 : IVec S4000000 32 := broadcastInDim S4000000 ![] bcast_S_S4000000 main_c_14
  let main_v39 : IVec S4000000 1 := cmpi .slt main_arg3 main_v38
  let main_v40 : IVec S4000000 1 := andi main_v37 main_v39
  let main_c_15 : IVec S_ 1 := constantI S_ 1 1#1
  let main_v41 : IVec S_ 1 := (fun x v => Host.reduce IntOp.andi x v reducesTo_S4000000_S_d0 h_S_) main_v40 main_c_15
  let main_v42 : IVec S_ 1 := andi main_v35 main_v41
  main_v42

def fn_part1 {F : FTy → Type} [FloatOps F] (main_arg1 : IVec S4000000 32) (main_arg3 : IVec S4000000 32) (main_arg6 : FVec F S128 .f32) (main_arg7 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4 .f32 := Host.absf main_arg7
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_c_10 : IVec S_ 32 := constantI S_ 32 0#32
  let main_v29 : IVec S4000000 32 := broadcastInDim S4000000 ![] bcast_S_S4000000 main_c_10
  let main_v30 : IVec S4000000 1 := cmpi .sge main_arg1 main_v29
  let main_c_11 : IVec S_ 32 := constantI S_ 32 2097152#32
  let main_v31 : IVec S4000000 32 := broadcastInDim S4000000 ![] bcast_S_S4000000 main_c_11
  let main_v32 : IVec S4000000 1 := cmpi .slt main_arg1 main_v31
  let main_v33 : IVec S4000000 1 := andi main_v30 main_v32
  fn_part2 (F := F) main_arg3 main_v28 main_v33

def fn {F : FTy → Type} [FloatOps F] (main_arg0 : FVec F S4000000x3 .f32) (main_arg1 : IVec S4000000 32) (main_arg2 : FVec F S4000000x3 .f32) (main_arg3 : IVec S4000000 32) (main_arg4 : FVec F S128 .f32) (main_arg5 : FVec F S128 .f32) (main_arg6 : FVec F S128 .f32) (main_arg7 : FVec F S4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x3 .f32 := Host.absf main_arg2
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_arg6 main_arg7 main_v13 main_v16
-- ==== Kernel.lean ====
abbrev S4000000x3 : Shape := ⟨2, ![4000000, 3]⟩
abbrev S4000000 : Shape := ⟨1, ![4000000]⟩
abbrev S128 : Shape := ⟨1, ![128]⟩
abbrev S4 : Shape := ⟨1, ![4]⟩
abbrev S4000000x1 : Shape := ⟨2, ![4000000, 1]⟩
abbrev S_ : Shape := ⟨0, ![]⟩
abbrev S4096000 : Shape := ⟨1, ![4096000]⟩
abbrev S32000x128 : Shape := ⟨2, ![32000, 128]⟩
abbrev S1x128 : Shape := ⟨2, ![1, 128]⟩
abbrev S1x4 : Shape := ⟨2, ![1, 4]⟩
abbrev S1000x128 : Shape := ⟨2, ![1000, 128]⟩
abbrev S1x1 : Shape := ⟨2, ![1, 1]⟩
abbrev S1000x128x1 : Shape := ⟨3, ![1000, 128, 1]⟩

abbrev nBuf : Space → Nat
  | .hbm => 72
  | .vmem => 28
  | .smem => 0
  | _ => 0

abbrev bufTy : (tb : Table) → Fin (tcTables nBuf tb) → BufTy
  | .hbm, ⟨0, _⟩ => ⟨S4000000x3, .f32⟩
  | .hbm, ⟨1, _⟩ => ⟨S4000000, .i32⟩
  | .hbm, ⟨2, _⟩ => ⟨S4000000x3, .f32⟩
  | .hbm, ⟨3, _⟩ => ⟨S4000000, .i32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4, .f32⟩
  | .hbm, ⟨8, _⟩ => ⟨S4000000x1, .f32⟩
  | .hbm, ⟨9, _⟩ => ⟨S4000000, .f32⟩
  | .hbm, ⟨10, _⟩ => ⟨S_, .i32⟩
  | .hbm, ⟨11, _⟩ => ⟨S_, .f32⟩
  | .hbm, ⟨12, _⟩ => ⟨S4096000, .f32⟩
  | .hbm, ⟨13, _⟩ => ⟨S32000x128, .f32⟩
  | .hbm, ⟨14, _⟩ => ⟨S4000000x1, .f32⟩
  | .hbm, ⟨15, _⟩ => ⟨S4000000, .f32⟩
  | .hbm, ⟨16, _⟩ => ⟨S_, .i32⟩
  | .hbm, ⟨17, _⟩ => ⟨S_, .f32⟩
  | .hbm, ⟨18, _⟩ => ⟨S4096000, .f32⟩
  | .hbm, ⟨19, _⟩ => ⟨S32000x128, .f32⟩
  | .hbm, ⟨20, _⟩ => ⟨S4000000x1, .f32⟩
  | .hbm, ⟨21, _⟩ => ⟨S4000000, .f32⟩
  | .hbm, ⟨22, _⟩ => ⟨S_, .i32⟩
  | .hbm, ⟨23, _⟩ => ⟨S_, .f32⟩
  | .hbm, ⟨24, _⟩ => ⟨S4096000, .f32⟩
  | .hbm, ⟨25, _⟩ => ⟨S32000x128, .f32⟩
  | .hbm, ⟨26, _⟩ => ⟨S_, .i32⟩
  | .hbm, ⟨27, _⟩ => ⟨S_, .i32⟩
  | .hbm, ⟨28, _⟩ => ⟨S4096000, .i32⟩
  | .hbm, ⟨29, _⟩ => ⟨S32000x128, .i32⟩
  | .hbm, ⟨30, _⟩ => ⟨S4000000x1, .f32⟩
  | .hbm, ⟨31, _⟩ => ⟨S4000000, .f32⟩
  | .hbm, ⟨32, _⟩ => ⟨S_, .i32⟩
  | .hbm, ⟨33, _⟩ => ⟨S_, .f32⟩
  | .hbm, ⟨34, _⟩ => ⟨S4096000, .f32⟩
  | .hbm, ⟨35, _⟩ => ⟨S32000x128, .f32⟩
  | .hbm, ⟨36, _⟩ => ⟨S4000000x1, .f32⟩
  | .hbm, ⟨37, _⟩ => ⟨S4000000, .f32⟩
  | .hbm, ⟨38, _⟩ => ⟨S_, .i32⟩
  | .hbm, ⟨39, _⟩ => ⟨S_, .f32⟩
  | .hbm, ⟨40, _⟩ => ⟨S4096000, .f32⟩
  | .hbm, ⟨41, _⟩ => ⟨S32000x128, .f32⟩
  | .hbm, ⟨42, _⟩ => ⟨S4000000x1, .f32⟩
  | .hbm, ⟨43, _⟩ => ⟨S4000000, .f32⟩
  | .hbm, ⟨44, _⟩ => ⟨S_, .i32⟩
  | .hbm, ⟨45, _⟩ => ⟨S_, .f32⟩
  | .hbm, ⟨46, _⟩ => ⟨S4096000, .f32⟩
  | .hbm, ⟨47, _⟩ => ⟨S32000x128, .f32⟩
  | .hbm, ⟨48, _⟩ => ⟨S_, .i32⟩
  | .hbm, ⟨49, _⟩ => ⟨S_, .i32⟩
  | .hbm, ⟨50, _⟩ => ⟨S4096000, .i32⟩
  | .hbm, ⟨51, _⟩ => ⟨S32000x128, .i32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x4, .f32⟩
  | .hbm, ⟨56, _⟩ => ⟨S32000x128, .f32⟩
  | .hbm, ⟨57, _⟩ => ⟨S32000x128, .f32⟩
  | .hbm, ⟨58, _⟩ => ⟨S32000x128, .f32⟩
  | .hbm, ⟨59, _⟩ => ⟨S32000x128, .f32⟩
  | .hbm, ⟨60, _⟩ => ⟨S4096000, .f32⟩
  | .hbm, ⟨61, _⟩ => ⟨S4000000, .f32⟩
  | .hbm, ⟨62, _⟩ => ⟨S4096000, .f32⟩
  | .hbm, ⟨63, _⟩ => ⟨S4000000, .f32⟩
  | .hbm, ⟨64, _⟩ => ⟨S4096000, .f32⟩
  | .hbm, ⟨65, _⟩ => ⟨S4000000, .f32⟩
  | .hbm, ⟨66, _⟩ => ⟨S4096000, .f32⟩
  | .hbm, ⟨67, _⟩ => ⟨S4000000, .f32⟩
  | .hbm, ⟨68, _⟩ => ⟨S4000000x1, .f32⟩
  | .hbm, ⟨69, _⟩ => ⟨S4000000x1, .f32⟩
  | .hbm, ⟨70, _⟩ => ⟨S4000000x1, .f32⟩
  | .hbm, ⟨71, _⟩ => ⟨S4000000x3, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .i32⟩
  | .local _ .vmem, ⟨7, _⟩ => ⟨S1000x128, .i32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .i32⟩
  | .local _ .vmem, ⟨15, _⟩ => ⟨S1000x128, .i32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x4, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_call4_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_call5_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_call6_v0 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_call7_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev main_v32_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S4000000x3_S4000000x1_0_0 : S4000000x3.Slices ![0, 0] S4000000x1
  shapeCasts_S4000000x1_S4000000 : S4000000x1.ShapeCasts S4000000
  pads_S4000000_S4096000_0960000 : S4000000.Pads (![0] : Fin 1 → Nat) ![96000] ![0] S4096000
  h_S_ : 0 < S_.numel
  shapeCasts_S4096000_S32000x128 : S4096000.ShapeCasts S32000x128
  slices_S4000000x3_S4000000x1_0_1 : S4000000x3.Slices ![0, 1] S4000000x1
  slices_S4000000x3_S4000000x1_0_2 : S4000000x3.Slices ![0, 2] S4000000x1
  shapeCasts_S128_S1x128 : S128.ShapeCasts S1x128
  shapeCasts_S4_S1x4 : S4.ShapeCasts S1x4
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1x4_S1x4_0_0 : ∀ a, (![0, 0] : Fin 2 → Nat) a + S1x4.size a ≤ S1x4.size a
  h_S1x4 : 0 < S1x4.numel
  shapeCasts_S1x4_S1x4 : S1x4.ShapeCasts S1x4
  slices_S1x4_o0_0_S1x1 : S1x4.Slices ![0, 0] S1x1
  slices_S1x4_o0_1_S1x1 : S1x4.Slices ![0, 1] S1x1
  slices_S1x4_o0_2_S1x1 : S1x4.Slices ![0, 2] S1x1
  slices_S1x4_o0_3_S1x1 : S1x4.Slices ![0, 3] S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S1000x128_S1000x128x1 : S1000x128.ShapeCasts S1000x128x1
  shapeCasts_S1000x128x1_S1000x128 : S1000x128x1.ShapeCasts S1000x128
  broadcasts_S1x1_S1000x128 : S1x1.Broadcasts S1000x128
  shapeCasts_S32000x128_S4096000 : S32000x128.ShapeCasts S4096000
  slices_S4096000_S4000000_0 : S4096000.Slices ![0] S4000000
  bcast_S4000000_S4000000x1_0 : S4000000.BroadcastsInDim S4000000x1 (![0] : Fin 1 → Fin S4000000x1.rank)
  concatenates_S4000000x1_S4000000x1_S4000000x1_S4000000x3_d1 : Shape.Concatenates [S4000000x1, S4000000x1, S4000000x1] S4000000x3 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S32000x128.size a
  hwx0_0 : ∀ i : grid0.Coords, EltTy.bits .f32 = 32 ∨ (Rect.block (s := S32000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S32000x128.size a
  hwx0_1 : ∀ i : grid0.Coords, EltTy.bits .f32 = 32 ∨ (Rect.block (s := S32000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S32000x128.size a
  hwx0_2 : ∀ i : grid0.Coords, EltTy.bits .f32 = 32 ∨ (Rect.block (s := S32000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S32000x128.size a
  hwx0_3 : ∀ i : grid0.Coords, EltTy.bits .i32 = 32 ∨ (Rect.block (s := S32000x128) S1000x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S32000x128.size a
  hwx0_4 : ∀ i : grid0.Coords, EltTy.bits .f32 = 32 ∨ (Rect.block (s := S32000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S32000x128.size a
  hwx0_5 : ∀ i : grid0.Coords, EltTy.bits .f32 = 32 ∨ (Rect.block (s := S32000x128) S1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S32000x128.size a
  hwx0_6 : ∀ i : grid0.Coords, EltTy.bits .f32 = 32 ∨ (Rect.block (s := S32000x128) S1000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S32000x128.size a
  hwx0_7 : ∀ i : grid0.Coords, EltTy.bits .i32 = 32 ∨ (Rect.block (s := S32000x128) S1000x128.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4.size a ≤ S1x4.size a
  hwx0_11 : ∀ i : grid0.Coords, EltTy.bits .f32 = 32 ∨ (Rect.block (s := S1x4) S1x4.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x128.size a ≤ S32000x128.size a
  hwx0_12 : ∀ i : grid0.Coords, EltTy.bits .f32 = 32 ∨ (Rect.block (s := S32000x128) S1000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x128.size a ≤ S32000x128.size a
  hwx0_13 : ∀ i : grid0.Coords, EltTy.bits .f32 = 32 ∨ (Rect.block (s := S32000x128) S1000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x128.size a ≤ S32000x128.size a
  hwx0_14 : ∀ i : grid0.Coords, EltTy.bits .f32 = 32 ∨ (Rect.block (s := S32000x128) S1000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x128.size a ≤ S32000x128.size a
  hwx0_15 : ∀ i : grid0.Coords, EltTy.bits .f32 = 32 ∨ (Rect.block (s := S32000x128) S1000x128.size (cc0_transform_15 i) (hinb0_15 i)).WholeWords (EltTy.packing .f32)

variable [Facts₀]

abbrev win0_0 : Pipeline.Window sig grid0 :=
  Pipeline.Window.ofSpec (Memref.whole main_v3) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S1x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32_0) S1000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v32_1) S1000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v32_2) S1000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v32_3) S1000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000 : Shape := ⟨1, ![4000000]⟩
abbrev S128 : Shape := ⟨1, ![128]⟩
abbrev S4 : Shape := ⟨1, ![4]⟩
abbrev S128x1x1x1 : Shape := ⟨4, ![128, 1, 1, 1]⟩
abbrev S128x128x128x1 : Shape := ⟨4, ![128, 128, 128, 1]⟩
abbrev S1x128x1x1 : Shape := ⟨4, ![1, 128, 1, 1]⟩
abbrev S1x1x128x1 : Shape := ⟨4, ![1, 1, 128, 1]⟩
abbrev S1x1x1x4 : Shape := ⟨4, ![1, 1, 1, 4]⟩
abbrev S128x128x128x4 : Shape := ⟨4, ![128, 128, 128, 4]⟩
abbrev S128x128x128x7 : Shape := ⟨4, ![128, 128, 128, 7]⟩
abbrev S2097152x7 : Shape := ⟨2, ![2097152, 7]⟩
abbrev S_ : Shape := ⟨0, ![]⟩
abbrev S4000000x1 : Shape := ⟨2, ![4000000, 1]⟩
abbrev S4000000x7 : Shape := ⟨2, ![4000000, 7]⟩

abbrev nBuf : Space → Nat
  | .hbm => 64
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000, .i32⟩
  | .hbm, ⟨2, _⟩ => ⟨S4000000x3, .f32⟩
  | .hbm, ⟨3, _⟩ => ⟨S4000000, .i32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4, .f32⟩
  | .hbm, ⟨8, _⟩ => ⟨S128x1x1x1, .f32⟩
  | .hbm, ⟨9, _⟩ => ⟨S128x128x128x1, .f32⟩
  | .hbm, ⟨10, _⟩ => ⟨S1x128x1x1, .f32⟩
  | .hbm, ⟨11, _⟩ => ⟨S128x128x128x1, .f32⟩
  | .hbm, ⟨12, _⟩ => ⟨S1x1x128x1, .f32⟩
  | .hbm, ⟨13, _⟩ => ⟨S128x128x128x1, .f32⟩
  | .hbm, ⟨14, _⟩ => ⟨S1x1x1x4, .f32⟩
  | .hbm, ⟨15, _⟩ => ⟨S128x128x128x4, .f32⟩
  | .hbm, ⟨16, _⟩ => ⟨S128x128x128x7, .f32⟩
  | .hbm, ⟨17, _⟩ => ⟨S2097152x7, .f32⟩
  | .hbm, ⟨18, _⟩ => ⟨S_, .i32⟩
  | .hbm, ⟨19, _⟩ => ⟨S4000000, .i32⟩
  | .hbm, ⟨20, _⟩ => ⟨S4000000, .i1⟩
  | .hbm, ⟨21, _⟩ => ⟨S_, .i32⟩
  | .hbm, ⟨22, _⟩ => ⟨S4000000, .i32⟩
  | .hbm, ⟨23, _⟩ => ⟨S4000000, .i32⟩
  | .hbm, ⟨24, _⟩ => ⟨S4000000, .i32⟩
  | .hbm, ⟨25, _⟩ => ⟨S4000000x1, .i32⟩
  | .hbm, ⟨26, _⟩ => ⟨S4000000x7, .f32⟩
  | .hbm, ⟨27, _⟩ => ⟨S4000000x3, .f32⟩
  | .hbm, ⟨28, _⟩ => ⟨S4000000x3, .f32⟩
  | .hbm, ⟨29, _⟩ => ⟨S4000000x1, .f32⟩
  | .hbm, ⟨30, _⟩ => ⟨S4000000, .f32⟩
  | .hbm, ⟨31, _⟩ => ⟨S4000000x3, .f32⟩
  | .hbm, ⟨32, _⟩ => ⟨S4000000x3, .f32⟩
  | .hbm, ⟨33, _⟩ => ⟨S4000000x3, .f32⟩
  | .hbm, ⟨34, _⟩ => ⟨S4000000x3, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000x7, .f32⟩
  | .hbm, ⟨47, _⟩ => ⟨S4000000x3, .f32⟩
  | .hbm, ⟨48, _⟩ => ⟨S4000000x3, .f32⟩
  | .hbm, ⟨49, _⟩ => ⟨S_, .f32⟩
  | .hbm, ⟨50, _⟩ => ⟨S4000000x3, .f32⟩
  | .hbm, ⟨51, _⟩ => ⟨S4000000x3, .f32⟩
  | .hbm, ⟨52, _⟩ => ⟨S4000000x3, .f32⟩
  | .hbm, ⟨53, _⟩ => ⟨S4000000x3, .f32⟩
  | .hbm, ⟨54, _⟩ => ⟨S4000000x3, .f32⟩
  | .hbm, ⟨55, _⟩ => ⟨S_, .f32⟩
  | .hbm, ⟨56, _⟩ => ⟨S4000000, .f32⟩
  | .hbm, ⟨57, _⟩ => ⟨S4000000x1, .f32⟩
  | .hbm, ⟨58, _⟩ => ⟨S_, .f32⟩
  | .hbm, ⟨59, _⟩ => ⟨S4000000x1, .f32⟩
  | .hbm, ⟨60, _⟩ => ⟨S4000000x1, .f32⟩
  | .hbm, ⟨61, _⟩ => ⟨S4000000x1, .f32⟩
  | .hbm, ⟨62, _⟩ => ⟨S4000000x3, .f32⟩
  | .hbm, ⟨63, _⟩ => ⟨S4000000x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  bcast_S128_S128x1x1x1_0 : S128.BroadcastsInDim S128x1x1x1 (![0] : Fin 1 → Fin S128x1x1x1.rank)
  bcast_S128x1x1x1_S128x128x128x1_0_1_2_3 : S128x1x1x1.BroadcastsInDim S128x128x128x1 (![0, 1, 2, 3] : Fin 4 → Fin S128x128x128x1.rank)
  bcast_S128_S1x128x1x1_1 : S128.BroadcastsInDim S1x128x1x1 (![1] : Fin 1 → Fin S1x128x1x1.rank)
  bcast_S1x128x1x1_S128x128x128x1_0_1_2_3 : S1x128x1x1.BroadcastsInDim S128x128x128x1 (![0, 1, 2, 3] : Fin 4 → Fin S128x128x128x1.rank)
  bcast_S128_S1x1x128x1_2 : S128.BroadcastsInDim S1x1x128x1 (![2] : Fin 1 → Fin S1x1x128x1.rank)
  bcast_S1x1x128x1_S128x128x128x1_0_1_2_3 : S1x1x128x1.BroadcastsInDim S128x128x128x1 (![0, 1, 2, 3] : Fin 4 → Fin S128x128x128x1.rank)
  bcast_S4_S1x1x1x4_3 : S4.BroadcastsInDim S1x1x1x4 (![3] : Fin 1 → Fin S1x1x1x4.rank)
  bcast_S1x1x1x4_S128x128x128x4_0_1_2_3 : S1x1x1x4.BroadcastsInDim S128x128x128x4 (![0, 1, 2, 3] : Fin 4 → Fin S128x128x128x4.rank)
  concatenates_S128x128x128x1_S128x128x128x1_S128x128x128x1_S128x128x128x4_S128x128x128x7_d3 : Shape.Concatenates [S128x128x128x1, S128x128x128x1, S128x128x128x1, S128x128x128x4] S128x128x128x7 3
  shapeCasts_S128x128x128x7_S2097152x7 : S128x128x128x7.ShapeCasts S2097152x7
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S4000000x7_S4000000x3_0_0 : S4000000x7.Slices ![0, 0] S4000000x3
  slices_S4000000x7_S4000000x3_0_3 : S4000000x7.Slices ![0, 3] S4000000x3
  slices_S4000000x7_S4000000x1_0_6 : S4000000x7.Slices ![0, 6] S4000000x1
  shapeCasts_S4000000x1_S4000000 : S4000000x1.ShapeCasts S4000000
  reducesTo_S4000000x3_S4000000_d1 : S4000000x3.ReducesTo [1] S4000000
  h_S_ : 0 < S_.numel
  bcast_S_S4000000x3 : S_.BroadcastsInDim S4000000x3 (![] : Fin 0 → Fin S4000000x3.rank)
  bcast_S_S4000000x1 : S_.BroadcastsInDim S4000000x1 (![] : Fin 0 → Fin S4000000x1.rank)
  bcast_S4000000x1_S4000000x3_0_1 : S4000000x1.BroadcastsInDim S4000000x3 (![0, 1] : Fin 2 → Fin S4000000x3.rank)
  gather_S2097152x7_S4000000x1_S4000000x7_1_0_n_n_0_1_17_wf : GatherDims.WF S2097152x7 S4000000x1 S4000000x7 [1] [0] [] [0] [] 1 ![1, 7]

variable [Facts₀]

def gather_S2097152x7_S4000000x1_S4000000x7_1_0_n_n_0_1_17 : GatherDims S2097152x7 S4000000x1 S4000000x7 where
  offsetDims := [1]
  collapsedSliceDims := [0]
  operandBatchingDims := []
  startIndicesBatchingDims := []
  startIndexMap := [0]
  indexVectorDim := 1
  sliceSizes := ![1, 7]
  wf := gather_S2097152x7_S4000000x1_S4000000x7_1_0_n_n_0_1_17_wf

class Facts : Prop extends Facts₀ where

variable [Facts]
-- ==== Proof.FrameKI.lean ====
/-
  The kernel's one launch, step by step: what each of the four result blocks holds after the body at a grid
  point, as a function of the twelve input blocks the point is handed.

  The body reads its eight data blocks (three coordinate planes and one plane of cell indices for each of the
  two point streams, 1000 x 128 entries, one point per entry), the three 128-entry tables and the four
  shared coefficients, whole; splits each cell index into three 7-bit fields, looks each field up in its
  table lane by lane, evaluates the quadric on one stream and the normalised gradient on the other, and
  stores four whole blocks. Nothing is kept from one point to the next.
-/
import proofs.«428591_j52295521796844_3_alg».proof.Proof.Gen.KernelIdeal.Launch
import proofs.«428591_j52295521796844_3_alg».proof.Proof.Gen.KernelIdeal.Skeleton
import proofs.«428591_j52295521796844_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store takes a whole block -/

/-- A data block, whole. -/
abbrev rB : Rect S1000x128 := Rect.unit (s := S1000x128) ![0, 0] S1000x128.size inb_S1000x128_S1000x128_0_0
/-- A table, whole. -/
abbrev rT : Rect S1x128 := Rect.unit (s := S1x128) ![0, 0] S1x128.size inb_S1x128_S1x128_0_0
/-- The four shared coefficients, whole. -/
abbrev rO : Rect S1x4 := Rect.unit (s := S1x4) ![0, 0] S1x4.size inb_S1x4_S1x4_0_0

/-! ## What the body leaves in each result block -/

/-- The quadric's values on the second stream: from that stream's three planes and cell indices, the tables and
    the coefficients. -/
def sdfBlk (spx spy spz : Vec F S1000x128 .f32) (sidx : Vec F S1000x128 .i32) (xl yl zl : Vec F S1x128 .f32)
    (off : Vec F S1x4 .f32) : Vec F S1000x128 .f32 :=
  View.canon [⟨rB, k0_pay28 (k0_pay10 (View.ld off rO)) (k0_pay11 (View.ld off rO)) (k0_pay12 (View.ld off rO)) (k0_pay13 (View.ld off rO))
    (k0_pay25 (k0_pay6 (View.ld xl rT)) (k0_pay19 (View.ld sidx rB))) (k0_pay26 (k0_pay7 (View.ld yl rT)) (k0_pay20 (View.ld sidx rB)))
    (k0_pay27 (k0_pay8 (View.ld zl rT)) (k0_pay21 (View.ld sidx rB))) (View.ld spx rB) (View.ld spy rB) (View.ld spz rB)⟩]

/-- The first component of the unit normal on the first stream. -/
def nxBlk (rpx rpy rpz : Vec F S1000x128 .f32) (ridx : Vec F S1000x128 .i32) (xl yl zl : Vec F S1x128 .f32)
    (off : Vec F S1x4 .f32) : Vec F S1000x128 .f32 :=
  View.canon [⟨rB, k0_pay3 (k0_pay12 (View.ld off rO)) (k0_pay24 (k0_pay8 (View.ld zl rT)) (k0_pay17 (View.ld ridx rB))) (k0_pay29 (View.ld rpz rB))
    (k0_pay30 (k0_pay10 (View.ld off rO)) (k0_pay22 (k0_pay6 (View.ld xl rT)) (k0_pay15 (View.ld ridx rB)) 0#32) (View.ld rpx rB))
    (k0_pay31 (k0_pay11 (View.ld off rO)) (k0_pay23 (k0_pay7 (View.ld yl rT)) (k0_pay16 (View.ld ridx rB))) (View.ld rpy rB)) k0_pay32⟩]

/-- The second component of the unit normal on the first stream. -/
def nyBlk (rpx rpy rpz : Vec F S1000x128 .f32) (ridx : Vec F S1000x128 .i32) (xl yl zl : Vec F S1x128 .f32)
    (off : Vec F S1x4 .f32) : Vec F S1000x128 .f32 :=
  View.canon [⟨rB, k0_pay4 (k0_pay12 (View.ld off rO)) (k0_pay24 (k0_pay8 (View.ld zl rT)) (k0_pay17 (View.ld ridx rB))) (k0_pay29 (View.ld rpz rB))
    (k0_pay30 (k0_pay10 (View.ld off rO)) (k0_pay22 (k0_pay6 (View.ld xl rT)) (k0_pay15 (View.ld ridx rB)) 0#32) (View.ld rpx rB))
    (k0_pay31 (k0_pay11 (View.ld off rO)) (k0_pay23 (k0_pay7 (View.ld yl rT)) (k0_pay16 (View.ld ridx rB))) (View.ld rpy rB)) k0_pay32⟩]

/-- The third component of the unit normal on the first stream. -/
def nzBlk (rpx rpy rpz : Vec F S1000x128 .f32) (ridx : Vec F S1000x128 .i32) (xl yl zl : Vec F S1x128 .f32)
    (off : Vec F S1x4 .f32) : Vec F S1000x128 .f32 :=
  View.canon [⟨rB, k0_pay5 (k0_pay12 (View.ld off rO)) (k0_pay24 (k0_pay8 (View.ld zl rT)) (k0_pay17 (View.ld ridx rB))) (k0_pay29 (View.ld rpz rB))
    (k0_pay30 (k0_pay10 (View.ld off rO)) (k0_pay22 (k0_pay6 (View.ld xl rT)) (k0_pay15 (View.ld ridx rB)) 0#32) (View.ld rpx rB))
    (k0_pay31 (k0_pay11 (View.ld off rO)) (k0_pay23 (k0_pay7 (View.ld yl rT)) (k0_pay16 (View.ld ridx rB))) (View.ld rpy rB)) k0_pay32⟩]

/-- One store of a whole block covers the block. -/
theorem cover_whole (p0 : Vec F S1000x128 .f32) (y : S1000x128.Idx) :
    ∃ pc ∈ ([⟨rB, p0⟩] : List (View.Piece (Elt F) S1000x128 .f32)), y ∈ pc.1.set :=
  View.cover_of_tiled [⟨rB, p0⟩] S1000x128.size (by rfl) y

/-! ## The body's triple -/

set_option maxHeartbeats 4000000 in
/-- The body on whole staging memrefs, the twelve inputs' at read contents and the four results' at anything, runs to
    the continuation holding the inputs' as they were and each result's at its block above. -/
theorem sound_kernel (c : Dev nD) (E : Set ℕ) (i : grid0.Coords)
    (arg1 : Memref sig .tc .vmem S1000x128 .f32) (harg1 : arg1.IsWhole) (arg2 : Memref sig .tc .vmem S1000x128 .f32) (harg2 : arg2.IsWhole)
    (arg3 : Memref sig .tc .vmem S1000x128 .f32) (harg3 : arg3.IsWhole) (arg4 : Memref sig .tc .vmem S1000x128 .i32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S1000x128 .f32) (harg7 : arg7.IsWhole) (arg8 : Memref sig .tc .vmem S1000x128 .i32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (arg12 : Memref sig .tc .vmem S1x4 .f32) (harg12 : arg12.IsWhole)
    (arg13 : Memref sig .tc .vmem S1000x128 .f32) (harg13 : arg13.IsWhole) (arg14 : Memref sig .tc .vmem S1000x128 .f32) (harg14 : arg14.IsWhole)
    (arg15 : Memref sig .tc .vmem S1000x128 .f32) (harg15 : arg15.IsWhole) (arg16 : Memref sig .tc .vmem S1000x128 .f32) (harg16 : arg16.IsWhole)
    (x0 x1 x2 : Vec F S1000x128 .f32) (x3 : Vec F S1000x128 .i32) (x4 x5 x6 : Vec F S1000x128 .f32) (x7 : Vec F S1000x128 .i32)
    (x8 x9 x10 : Vec F S1x128 .f32) (x11 : Vec F S1x4 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare (sdfBlk x4 x5 x6 x7 x8 x9 x10 x11)
            ∗ owns (c : Thread nD τ) arg14 fullShare (nxBlk x0 x1 x2 x3 x8 x9 x10 x11)
            ∗ owns (c : Thread nD τ) arg15 fullShare (nyBlk x0 x1 x2 x3 x8 x9 x10 x11)
            ∗ owns (c : Thread nD τ) arg16 fullShare (nzBlk x0 x1 x2 x3 x8 x9 x10 x11)) -∗ K ⟨⟩))
      ⊢ wp frame (wpE (defs₀ (F := F)) Variants.none c none) E
          (cc0__qgrid_kernel i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16) K := by
  sl_unfold [cc0__qgrid_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩,
    ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_words
    exact View.read_writes_eq_canon _ _ _ (cover_whole _)
  isplitl [H13]
  · iexists _; isplitr
    swap; · iexact H13
    ipureintro
    sl_unfold_words
    exact View.read_writes_eq_canon _ _ _ (cover_whole _)
  isplitl [H14]
  · iexists _; isplitr
    swap; · iexact H14
    ipureintro
    sl_unfold_words
    exact View.read_writes_eq_canon _ _ _ (cover_whole _)
  iexists _; isplitr
  swap; · iexact H15
  ipureintro
  sl_unfold_words
  exact View.read_writes_eq_canon _ _ _ (cover_whole _)

/-! ## @main around the launch -/

variable (m : (ℓ : Loc nD τ sig) → Buf (Elt F) ℓ) (ρ : Dev nD → PrngReg)

/-- The host lines before the launch, stretch by stretch: each plane is sliced off its list, padded with zeros to
    4096000 entries and laid out as 32000 rows of 128; the tables and the coefficients get a leading unit axis. -/
abbrev prefixOps : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16]

/-- Core `c`'s buffer contents when the launch is entered. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem prefix_sub : (prefixOps (F := F)).Forall fun ops => ops.Forall fun op => op.bufs ⊆ StableHlo.tcRefs τ sig := by
  simp only [prefixOps, List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub,
    hostOps0_16_sub⟩

theorem prefix_fresh : (prefixOps (F := F)).Forall fun ops => ops.Forall fun op => op.fresh = ∅ := by
  simp only [prefixOps, List.Forall]; repeat' constructor

theorem tail_fresh : (hostOps1 : List (HloOp τ sig (Elt F))).Forall fun op => op.fresh = ∅ := by
  simp only [List.Forall]; repeat' constructor

/-- @main is the host lines before the launch, the launch, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The lines after the launch touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop
/-- and write none of the sixteen arrays the launch stages: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- A buffer no line before the launch writes is found as launched. -/
theorem V_kept (c : Dev nD) (b : Ref sig .tc)
    (h : ∀ op ∈ List.flatten (prefixOps (F := F)), Proc.devRef .tc b ∉ op.writes) : V m c b = m ((c : Thread nD τ).loc b) :=
  StableHlo.after_of_forall_not_mem (b := Proc.devRef .tc b) _ _ h

/-- No line before the launch writes an argument of @main. -/
theorem prefix_keeps_args (b : Ref sig .tc)
    (hb : b = main_arg0 ∨ b = main_arg1 ∨ b = main_arg2 ∨ b = main_arg3 ∨ b = main_arg4 ∨ b = main_arg5 ∨ b = main_arg6 ∨ b = main_arg7) :
    ∀ op ∈ List.flatten (prefixOps (F := F)), Proc.devRef .tc b ∉ op.writes := by
  rcases hb with rfl | rfl | rfl | rfl | rfl | rfl | rfl | rfl
  all_goals
    refine (List.forall_iff_forall_mem (p := fun op : HloOp τ sig (Elt F) => Proc.devRef (τ := τ) .tc _ ∉ op.writes)).mp ?_
    simp only [prefixOps, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, List.flatten_cons, List.flatten_nil,
      List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Nor does a line after it. -/
theorem tail_keeps_args (b : Ref sig .tc)
    (hb : b = main_arg0 ∨ b = main_arg1 ∨ b = main_arg2 ∨ b = main_arg3 ∨ b = main_arg4 ∨ b = main_arg5 ∨ b = main_arg6 ∨ b = main_arg7) :
    ∀ op ∈ (hostOps1 : List (HloOp τ sig (Elt F))), Proc.devRef .tc b ∉ op.writes := by
  rcases hb with rfl | rfl | rfl | rfl | rfl | rfl | rfl | rfl
  all_goals
    refine (List.forall_iff_forall_mem (p := fun op : HloOp τ sig (Elt F) => Proc.devRef (τ := τ) .tc _ ∉ op.writes)).mp ?_
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- So an argument ends as launched, whatever the launch leaves in its own arrays. -/
theorem W_kept (dats : (p : Fin _) → (c : Dev nD) → Dat τ (Elt F) Unit ℕ (UR sig nD τ) ℕ (cfgs p) c) (c : Dev nD) (b : Ref sig .tc)
    (hb : b = main_arg0 ∨ b = main_arg1 ∨ b = main_arg2 ∨ b = main_arg3 ∨ b = main_arg4 ∨ b = main_arg5 ∨ b = main_arg6 ∨ b = main_arg7) :
    Pipeline.afterTail₀ cfgs dats 0 (V0 m) [hostOps1] c b = m ((c : Thread nD τ).loc b) := by
  unfold Pipeline.afterTail₀
  rw [StableHlo.after_of_forall_not_mem (b := Proc.devRef .tc b) _ _ (by
      simpa only [List.flatten_cons, List.flatten_nil, List.append_nil] using tail_keeps_args (F := F) b hb),
    Pipeline.withArrays_of_ne _ c (V0 m c) _ b (by
      intro w
      rcases hb with rfl | rfl | rfl | rfl | rfl | rfl | rfl | rfl <;> (revert w; decide))]
  exact V_kept m c b (prefix_keeps_args b hb)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input block is found where the pipeline put it

    Whether a point fetches an input window or not (the tables and the coefficients are fetched once, their block
    index never moving), the body finds the window's current staging buffer at the window's block of the array. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- Every argument of @main is a buffer no window stages and no host line writes: a run to the pipeline's post
    leaves it as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of main_arg0 (by decide) (by decide))).trans (W_kept m dats c main_arg0 (Or.inl rfl)),
     ((h c).2 main_arg1 (Pipeline.mem_restRefs_of main_arg1 (by decide) (by decide))).trans (W_kept m dats c main_arg1 (Or.inr (Or.inl rfl))),
     ((h c).2 main_arg2 (Pipeline.mem_restRefs_of main_arg2 (by decide) (by decide))).trans (W_kept m dats c main_arg2 (Or.inr (Or.inr (Or.inl rfl)))),
     ((h c).2 main_arg3 (Pipeline.mem_restRefs_of main_arg3 (by decide) (by decide))).trans (W_kept m dats c main_arg3 (Or.inr (Or.inr (Or.inr (Or.inl rfl))))),
     ((h c).2 main_arg4 (Pipeline.mem_restRefs_of main_arg4 (by decide) (by decide))).trans (W_kept m dats c main_arg4 (Or.inr (Or.inr (Or.inr (Or.inr (Or.inl rfl)))))),
     ((h c).2 main_arg5 (Pipeline.mem_restRefs_of main_arg5 (by decide) (by decide))).trans (W_kept m dats c main_arg5 (Or.inr (Or.inr (Or.inr (Or.inr (Or.inr (Or.inl rfl))))))),
     ((h c).2 main_arg6 (Pipeline.mem_restRefs_of main_arg6 (by decide) (by decide))).trans (W_kept m dats c main_arg6 (Or.inr (Or.inr (Or.inr (Or.inr (Or.inr (Or.inr (Or.inl rfl)))))))),
     ((h c).2 main_arg7 (Pipeline.mem_restRefs_of main_arg7 (by decide) (by decide))).trans (W_kept m dats c main_arg7 (Or.inr (Or.inr (Or.inr (Or.inr (Or.inr (Or.inr (Or.inr rfl))))))))⟩) h

/-! ## The launch's proof data -/

/-- On core `c`: the arrays as the launch finds them; after the body at point `t` each input's buffer at its block
    and each result's at its block above of the input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => sdfBlk (iblk m c 4 t) (iblk m c 5 t) (iblk m c 6 t) (iblk m c 7 t) (iblk m c 8 t) (iblk m c 9 t) (iblk m c 10 t) (iblk m c 11 t)
    | ⟨13, _⟩ => nxBlk (iblk m c 0 t) (iblk m c 1 t) (iblk m c 2 t) (iblk m c 3 t) (iblk m c 8 t) (iblk m c 9 t) (iblk m c 10 t) (iblk m c 11 t)
    | ⟨14, _⟩ => nyBlk (iblk m c 0 t) (iblk m c 1 t) (iblk m c 2 t) (iblk m c 3 t) (iblk m c 8 t) (iblk m c 9 t) (iblk m c 10 t) (iblk m c 11 t)
    | ⟨15, _⟩ => nzBlk (iblk m c 0 t) (iblk m c 1 t) (iblk m c 2 t) (iblk m c 3 t) (iblk m c 8 t) (iblk m c 9 t) (iblk m c 10 t) (iblk m c 11 t)
    | ⟨_ + 16, h⟩ => absurd h (Nat.not_lt.2 (Nat.le_add_left _ _))
  Φ _ := Pipeline.ΦA spec0 c
  q _ := fullShare
  owed _ := 0

/-- The proof data's arrays are the contents at the launch's entry. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t
    = sdfBlk (iblk m c 4 t) (iblk m c 5 t) (iblk m c 6 t) (iblk m c 7 t) (iblk m c 8 t) (iblk m c 9 t) (iblk m c 10 t) (iblk m c 11 t) := by dsimp only [dats]
theorem after_13 (c : Dev nD) (t : Fin cfg0.N) : (dats m 0 c).after 13 t
    = nxBlk (iblk m c 0 t) (iblk m c 1 t) (iblk m c 2 t) (iblk m c 3 t) (iblk m c 8 t) (iblk m c 9 t) (iblk m c 10 t) (iblk m c 11 t) := by dsimp only [dats]
theorem after_14 (c : Dev nD) (t : Fin cfg0.N) : (dats m 0 c).after 14 t
    = nyBlk (iblk m c 0 t) (iblk m c 1 t) (iblk m c 2 t) (iblk m c 3 t) (iblk m c 8 t) (iblk m c 9 t) (iblk m c 10 t) (iblk m c 11 t) := by dsimp only [dats]
theorem after_15 (c : Dev nD) (t : Fin cfg0.N) : (dats m 0 c).after 15 t
    = nzBlk (iblk m c 0 t) (iblk m c 1 t) (iblk m c 2 t) (iblk m c 3 t) (iblk m c 8 t) (iblk m c 9 t) (iblk m c 10 t) (iblk m c 11 t) := by dsimp only [dats]

/-- Each input's current staging buffer holds its block at every point. -/
theorem before_0 (c : Dev nD) (t : Fin cfg0.N) (d) : (dats m 0 c).before 0 t d = iblk m c 0 t := before_0_of m (dats m 0 c) (A_eq m c 0) (after_0 m c) t d
theorem before_1 (c : Dev nD) (t : Fin cfg0.N) (d) : (dats m 0 c).before 1 t d = iblk m c 1 t := before_1_of m (dats m 0 c) (A_eq m c 1) (after_1 m c) t d
theorem before_2 (c : Dev nD) (t : Fin cfg0.N) (d) : (dats m 0 c).before 2 t d = iblk m c 2 t := before_2_of m (dats m 0 c) (A_eq m c 2) (after_2 m c) t d
theorem before_3 (c : Dev nD) (t : Fin cfg0.N) (d) : (dats m 0 c).before 3 t d = iblk m c 3 t := before_3_of m (dats m 0 c) (A_eq m c 3) (after_3 m c) t d
theorem before_4 (c : Dev nD) (t : Fin cfg0.N) (d) : (dats m 0 c).before 4 t d = iblk m c 4 t := before_4_of m (dats m 0 c) (A_eq m c 4) (after_4 m c) t d
theorem before_5 (c : Dev nD) (t : Fin cfg0.N) (d) : (dats m 0 c).before 5 t d = iblk m c 5 t := before_5_of m (dats m 0 c) (A_eq m c 5) (after_5 m c) t d
theorem before_6 (c : Dev nD) (t : Fin cfg0.N) (d) : (dats m 0 c).before 6 t d = iblk m c 6 t := before_6_of m (dats m 0 c) (A_eq m c 6) (after_6 m c) t d
theorem before_7 (c : Dev nD) (t : Fin cfg0.N) (d) : (dats m 0 c).before 7 t d = iblk m c 7 t := before_7_of m (dats m 0 c) (A_eq m c 7) (after_7 m c) t d
theorem before_8 (c : Dev nD) (t : Fin cfg0.N) (d) : (dats m 0 c).before 8 t d = iblk m c 8 t := before_8_of m (dats m 0 c) (A_eq m c 8) (after_8 m c) t d
theorem before_9 (c : Dev nD) (t : Fin cfg0.N) (d) : (dats m 0 c).before 9 t d = iblk m c 9 t := before_9_of m (dats m 0 c) (A_eq m c 9) (after_9 m c) t d
theorem before_10 (c : Dev nD) (t : Fin cfg0.N) (d) : (dats m 0 c).before 10 t d = iblk m c 10 t := before_10_of m (dats m 0 c) (A_eq m c 10) (after_10 m c) t d
theorem before_11 (c : Dev nD) (t : Fin cfg0.N) (d) : (dats m 0 c).before 11 t d = iblk m c 11 t := before_11_of m (dats m 0 c) (A_eq m c 11) (after_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11,
    after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the launch at what the
    library computes from the proof data and every other unscoped buffer as the lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end without a fault and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Hand

end
-- ==== Proof.Blocks.lean ====
/-
  From blocks to arrays. The grid has 32 points; at point t each of the eight data windows and each of the four
  result windows takes rows 1000 t … 1000 t + 999 of its 32000 x 128 array (block index (t, 0)), and the tables
  and the coefficients take their whole array at every point (block index (0, 0)). So entry (r, l) of a data
  block at point t is entry (1000 t + r, l) of its array, distinct points write disjoint blocks of a result
  array, and entry (1000 t + r, l) of a result array after the launch is entry (r, l) of what the body left
  at point t.
-/
import proofs.«428591_j52295521796844_3_alg».proof.Proof.FrameKI
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (c : Dev nD)

/-! ## The block indices, decided over the grid's 32 points -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = t.val ∧ win0_12.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)

/-! ## An entry of an input block is an entry of the array the launch found -/

section data
variable (t : Fin cfg0.N) (r : Fin 1000) (l : Fin 128) (R : Fin 32000) (hR : R.val = t.val * 1000 + r.val)
include hR

theorem iblk_0 : (iblk m c 0 t : S1000x128.Idx → Elt F .f32) (ix2 r l) = (V m c main_v3 : S32000x128.Idx → Elt F .f32) (ix2 R l) := by
  obtain ⟨e0, e1⟩ := idx_0 t
  show (V m c main_v3 : S32000x128.Idx → Elt F .f32) (((cfg0.win 0).blk t).view.emb (ix2 r l)) = _
  refine congrArg _ (funext fun a => Fin.ext ?_)
  match a with
  | ⟨0, _⟩ => show win0_0.index t (0 : Fin 2) * 1000 + 1 * r.val = R.val; omega
  | ⟨1, _⟩ => show win0_0.index t (1 : Fin 2) * 128 + 1 * l.val = l.val; omega
theorem iblk_1 : (iblk m c 1 t : S1000x128.Idx → Elt F .f32) (ix2 r l) = (V m c main_v7 : S32000x128.Idx → Elt F .f32) (ix2 R l) := by
  obtain ⟨e0, e1⟩ := idx_1 t
  show (V m c main_v7 : S32000x128.Idx → Elt F .f32) (((cfg0.win 1).blk t).view.emb (ix2 r l)) = _
  refine congrArg _ (funext fun a => Fin.ext ?_)
  match a with
  | ⟨0, _⟩ => show win0_1.index t (0 : Fin 2) * 1000 + 1 * r.val = R.val; omega
  | ⟨1, _⟩ => show win0_1.index t (1 : Fin 2) * 128 + 1 * l.val = l.val; omega
theorem iblk_2 : (iblk m c 2 t : S1000x128.Idx → Elt F .f32) (ix2 r l) = (V m c main_v11 : S32000x128.Idx → Elt F .f32) (ix2 R l) := by
  obtain ⟨e0, e1⟩ := idx_2 t
  show (V m c main_v11 : S32000x128.Idx → Elt F .f32) (((cfg0.win 2).blk t).view.emb (ix2 r l)) = _
  refine congrArg _ (funext fun a => Fin.ext ?_)
  match a with
  | ⟨0, _⟩ => show win0_2.index t (0 : Fin 2) * 1000 + 1 * r.val = R.val; omega
  | ⟨1, _⟩ => show win0_2.index t (1 : Fin 2) * 128 + 1 * l.val = l.val; omega
theorem iblk_3 : (iblk m c 3 t : S1000x128.Idx → Elt F .i32) (ix2 r l) = (V m c main_v13 : S32000x128.Idx → Elt F .i32) (ix2 R l) := by
  obtain ⟨e0, e1⟩ := idx_3 t
  show (V m c main_v13 : S32000x128.Idx → Elt F .i32) (((cfg0.win 3).blk t).view.emb (ix2 r l)) = _
  refine congrArg _ (funext fun a => Fin.ext ?_)
  match a with
  | ⟨0, _⟩ => show win0_3.index t (0 : Fin 2) * 1000 + 1 * r.val = R.val; omega
  | ⟨1, _⟩ => show win0_3.index t (1 : Fin 2) * 128 + 1 * l.val = l.val; omega
theorem iblk_4 : (iblk m c 4 t : S1000x128.Idx → Elt F .f32) (ix2 r l) = (V m c main_v17 : S32000x128.Idx → Elt F .f32) (ix2 R l) := by
  obtain ⟨e0, e1⟩ := idx_4 t
  show (V m c main_v17 : S32000x128.Idx → Elt F .f32) (((cfg0.win 4).blk t).view.emb (ix2 r l)) = _
  refine congrArg _ (funext fun a => Fin.ext ?_)
  match a with
  | ⟨0, _⟩ => show win0_4.index t (0 : Fin 2) * 1000 + 1 * r.val = R.val; omega
  | ⟨1, _⟩ => show win0_4.index t (1 : Fin 2) * 128 + 1 * l.val = l.val; omega
theorem iblk_5 : (iblk m c 5 t : S1000x128.Idx → Elt F .f32) (ix2 r l) = (V m c main_v21 : S32000x128.Idx → Elt F .f32) (ix2 R l) := by
  obtain ⟨e0, e1⟩ := idx_5 t
  show (V m c main_v21 : S32000x128.Idx → Elt F .f32) (((cfg0.win 5).blk t).view.emb (ix2 r l)) = _
  refine congrArg _ (funext fun a => Fin.ext ?_)
  match a with
  | ⟨0, _⟩ => show win0_5.index t (0 : Fin 2) * 1000 + 1 * r.val = R.val; omega
  | ⟨1, _⟩ => show win0_5.index t (1 : Fin 2) * 128 + 1 * l.val = l.val; omega
theorem iblk_6 : (iblk m c 6 t : S1000x128.Idx → Elt F .f32) (ix2 r l) = (V m c main_v25 : S32000x128.Idx → Elt F .f32) (ix2 R l) := by
  obtain ⟨e0, e1⟩ := idx_6 t
  show (V m c main_v25 : S32000x128.Idx → Elt F .f32) (((cfg0.win 6).blk t).view.emb (ix2 r l)) = _
  refine congrArg _ (funext fun a => Fin.ext ?_)
  match a with
  | ⟨0, _⟩ => show win0_6.index t (0 : Fin 2) * 1000 + 1 * r.val = R.val; omega
  | ⟨1, _⟩ => show win0_6.index t (1 : Fin 2) * 128 + 1 * l.val = l.val; omega
theorem iblk_7 : (iblk m c 7 t : S1000x128.Idx → Elt F .i32) (ix2 r l) = (V m c main_v27 : S32000x128.Idx → Elt F .i32) (ix2 R l) := by
  obtain ⟨e0, e1⟩ := idx_7 t
  show (V m c main_v27 : S32000x128.Idx → Elt F .i32) (((cfg0.win 7).blk t).view.emb (ix2 r l)) = _
  refine congrArg _ (funext fun a => Fin.ext ?_)
  match a with
  | ⟨0, _⟩ => show win0_7.index t (0 : Fin 2) * 1000 + 1 * r.val = R.val; omega
  | ⟨1, _⟩ => show win0_7.index t (1 : Fin 2) * 128 + 1 * l.val = l.val; omega

end data

section tables
variable (t : Fin cfg0.N)

theorem iblk_8 (k : Fin 128) : (iblk m c 8 t : S1x128.Idx → Elt F .f32) (ix2 0 k) = (V m c main_v28 : S1x128.Idx → Elt F .f32) (ix2 0 k) := by
  obtain ⟨e0, e1⟩ := idx_8 t
  show (V m c main_v28 : S1x128.Idx → Elt F .f32) (((cfg0.win 8).blk t).view.emb (ix2 0 k)) = _
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * k.val = k.val; omega
theorem iblk_9 (k : Fin 128) : (iblk m c 9 t : S1x128.Idx → Elt F .f32) (ix2 0 k) = (V m c main_v29 : S1x128.Idx → Elt F .f32) (ix2 0 k) := by
  obtain ⟨e0, e1⟩ := idx_9 t
  show (V m c main_v29 : S1x128.Idx → Elt F .f32) (((cfg0.win 9).blk t).view.emb (ix2 0 k)) = _
  refine congrArg _ (funext fun a => Fin.ext ?_)
  match a with
  | ⟨0, _⟩ => show win0_9.index t (0 : Fin 2) * 1 + 1 * 0 = 0; omega
  | ⟨1, _⟩ => show win0_9.index t (1 : Fin 2) * 128 + 1 * k.val = k.val; omega
theorem iblk_10 (k : Fin 128) : (iblk m c 10 t : S1x128.Idx → Elt F .f32) (ix2 0 k) = (V m c main_v30 : S1x128.Idx → Elt F .f32) (ix2 0 k) := by
  obtain ⟨e0, e1⟩ := idx_10 t
  show (V m c main_v30 : S1x128.Idx → Elt F .f32) (((cfg0.win 10).blk t).view.emb (ix2 0 k)) = _
  refine congrArg _ (funext fun a => Fin.ext ?_)
  match a with
  | ⟨0, _⟩ => show win0_10.index t (0 : Fin 2) * 1 + 1 * 0 = 0; omega
  | ⟨1, _⟩ => show win0_10.index t (1 : Fin 2) * 128 + 1 * k.val = k.val; omega
theorem iblk_11 (k : Fin 4) : (iblk m c 11 t : S1x4.Idx → Elt F .f32) (ix2 0 k) = (V m c main_v31 : S1x4.Idx → Elt F .f32) (ix2 0 k) := by
  obtain ⟨e0, e1⟩ := idx_11 t
  show (V m c main_v31 : S1x4.Idx → Elt F .f32) (((cfg0.win 11).blk t).view.emb (ix2 0 k)) = _
  refine congrArg _ (funext fun a => Fin.ext ?_)
  match a with
  | ⟨0, _⟩ => show win0_11.index t (0 : Fin 2) * 1 + 1 * 0 = 0; omega
  | ⟨1, _⟩ => show win0_11.index t (1 : Fin 2) * 4 + 1 * k.val = k.val; omega

end tables

/-! ## Distinct points write disjoint blocks of a result array -/

theorem inj_12 : ∀ t t' : Fin cfg0.N, win0_12.index t = win0_12.index t' → t = t' :=
  (by decide +kernel : ∀ t t' : Fin grid0.N, win0_12.index t = win0_12.index t' → t = t')
theorem inj_13 : ∀ t t' : Fin cfg0.N, win0_13.index t = win0_13.index t' → t = t' :=
  (by decide +kernel : ∀ t t' : Fin grid0.N, win0_13.index t = win0_13.index t' → t = t')
theorem inj_14 : ∀ t t' : Fin cfg0.N, win0_14.index t = win0_14.index t' → t = t' :=
  (by decide +kernel : ∀ t t' : Fin grid0.N, win0_14.index t = win0_14.index t' → t = t')
theorem inj_15 : ∀ t t' : Fin cfg0.N, win0_15.index t = win0_15.index t' → t = t' :=
  (by decide +kernel : ∀ t t' : Fin grid0.N, win0_15.index t = win0_15.index t' → t = t')

theorem disjoint_12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (inj_12 t t' h)
theorem disjoint_13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (inj_13 t t' h)
theorem disjoint_14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (inj_14 t t' h)
theorem disjoint_15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (inj_15 t t' h)

/-! ## An entry of a result array after the launch is an entry of the block its point left -/

section results
variable (t : Fin cfg0.N) (r : Fin 1000) (l : Fin 128) (R : Fin 32000) (hR : R.val = t.val * 1000 + r.val)
include hR

theorem arr_12 : ((dats m 0 c).arrAt 12 cfg0.N : S32000x128.Idx → Elt F .f32) (ix2 R l)
    = sdfBlk (iblk m c 4 t) (iblk m c 5 t) (iblk m c 6 t) (iblk m c 7 t) (iblk m c 8 t) (iblk m c 9 t) (iblk m c 10 t) (iblk m c 11 t) (ix2 r l) := by
  obtain ⟨e0, e1⟩ := idx_12 t
  have h := (dats m 0 c).arrAt_emb_eq_flushed 12 disjoint_12 t (flush0_12 t) (ix2 r l)
  have hemb : ((cfg0.win 12).blk t).view.emb (ix2 r l) = (ix2 R l : S32000x128.Idx) := by
    funext a; apply Fin.ext
    match a with
    | ⟨0, _⟩ => show win0_12.index t (0 : Fin 2) * 1000 + 1 * r.val = R.val; omega
    | ⟨1, _⟩ => show win0_12.index t (1 : Fin 2) * 128 + 1 * l.val = l.val; omega
  rw [hemb] at h
  refine h.trans ?_
  show (cfg0.win 12).cut (grid0.coords t) ((dats m 0 c).after 12 t) (ix2 r l) = _
  rw [after_12]
  rfl
theorem arr_13 : ((dats m 0 c).arrAt 13 cfg0.N : S32000x128.Idx → Elt F .f32) (ix2 R l)
    = nxBlk (iblk m c 0 t) (iblk m c 1 t) (iblk m c 2 t) (iblk m c 3 t) (iblk m c 8 t) (iblk m c 9 t) (iblk m c 10 t) (iblk m c 11 t) (ix2 r l) := by
  obtain ⟨e0, e1⟩ := idx_13 t
  have h := (dats m 0 c).arrAt_emb_eq_flushed 13 disjoint_13 t (flush0_13 t) (ix2 r l)
  have hemb : ((cfg0.win 13).blk t).view.emb (ix2 r l) = (ix2 R l : S32000x128.Idx) := by
    funext a; apply Fin.ext
    match a with
    | ⟨0, _⟩ => show win0_13.index t (0 : Fin 2) * 1000 + 1 * r.val = R.val; omega
    | ⟨1, _⟩ => show win0_13.index t (1 : Fin 2) * 128 + 1 * l.val = l.val; omega
  rw [hemb] at h
  refine h.trans ?_
  show (cfg0.win 13).cut (grid0.coords t) ((dats m 0 c).after 13 t) (ix2 r l) = _
  rw [after_13]
  rfl
theorem arr_14 : ((dats m 0 c).arrAt 14 cfg0.N : S32000x128.Idx → Elt F .f32) (ix2 R l)
    = nyBlk (iblk m c 0 t) (iblk m c 1 t) (iblk m c 2 t) (iblk m c 3 t) (iblk m c 8 t) (iblk m c 9 t) (iblk m c 10 t) (iblk m c 11 t) (ix2 r l) := by
  obtain ⟨e0, e1⟩ := idx_14 t
  have h := (dats m 0 c).arrAt_emb_eq_flushed 14 disjoint_14 t (flush0_14 t) (ix2 r l)
  have hemb : ((cfg0.win 14).blk t).view.emb (ix2 r l) = (ix2 R l : S32000x128.Idx) := by
    funext a; apply Fin.ext
    match a with
    | ⟨0, _⟩ => show win0_14.index t (0 : Fin 2) * 1000 + 1 * r.val = R.val; omega
    | ⟨1, _⟩ => show win0_14.index t (1 : Fin 2) * 128 + 1 * l.val = l.val; omega
  rw [hemb] at h
  refine h.trans ?_
  show (cfg0.win 14).cut (grid0.coords t) ((dats m 0 c).after 14 t) (ix2 r l) = _
  rw [after_14]
  rfl
theorem arr_15 : ((dats m 0 c).arrAt 15 cfg0.N : S32000x128.Idx → Elt F .f32) (ix2 R l)
    = nzBlk (iblk m c 0 t) (iblk m c 1 t) (iblk m c 2 t) (iblk m c 3 t) (iblk m c 8 t) (iblk m c 9 t) (iblk m c 10 t) (iblk m c 11 t) (ix2 r l) := by
  obtain ⟨e0, e1⟩ := idx_15 t
  have h := (dats m 0 c).arrAt_emb_eq_flushed 15 disjoint_15 t (flush0_15 t) (ix2 r l)
  have hemb : ((cfg0.win 15).blk t).view.emb (ix2 r l) = (ix2 R l : S32000x128.Idx) := by
    funext a; apply Fin.ext
    match a with
    | ⟨0, _⟩ => show win0_15.index t (0 : Fin 2) * 1000 + 1 * r.val = R.val; omega
    | ⟨1, _⟩ => show win0_15.index t (1 : Fin 2) * 128 + 1 * l.val = l.val; omega
  rw [hemb] at h
  refine h.trans ?_
  show (cfg0.win 15).cut (grid0.coords t) ((dats m 0 c).after 15 t) (ix2 r l) = _
  rw [after_15]
  rfl

end results

end Cert.KernelIdeal.Hand

end
-- ==== Proof.Tail.lean ====
/-
  The host lines after the launch. Each of the four result arrays, 32000 rows of 128, is flattened to 4096000
  entries and cut back to the first 4000000: entry n of the cut is entry (n / 128, n mod 128) of the array. The
  first is the program's first result as it stands; the other three become the three columns of the second
  result: entry (n, a) of it is entry n of the a-th of them.
-/
import proofs.«428591_j52295521796844_3_alg».proof.Proof.FrameKI
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The three layout steps, read at an index -/

section layout
variable {α : Type}

/-- A 32000 x 128 array flattened and cut to its first 4000000 entries. -/
def flat (A : S32000x128.Idx → α) : S4000000.Idx → α :=
  extractStridedSlice S4000000 ![0] (shapeCast S4096000 A shapeCasts_S32000x128_S4096000) slices_S4096000_S4000000_0

/-- Entry n of the cut is entry (n / 128, n mod 128) of the array. -/
theorem flat_apply (A : S32000x128.Idx → α) (n : Fin 4000000) :
    flat A (ix1 n) = A (ix2 ⟨n.val / 128, by have := n.isLt; omega⟩ ⟨n.val % 128, Nat.mod_lt _ (by decide)⟩) := by
  unfold flat
  rw [extractStridedSlice_apply ![0] _ slices_S4096000_S4000000_0 (ix1 n) (ix1 ⟨n.val, by have := n.isLt; omega⟩)
    (fun a => by match a with | ⟨0, _⟩ => show n.val = 0 + n.val; omega)]
  refine shapeCast_apply A shapeCasts_S32000x128_S4096000 _ _ ?_
  rw [Shape.rowMajor_val_two, Shape.rowMajor_val_one]
  show n.val / 128 * 128 + n.val % 128 = n.val
  omega

/-- A vector made the one column of a matrix. -/
def col (v : S4000000.Idx → α) : S4000000x1.Idx → α := broadcastInDim S4000000x1 ![0] bcast_S4000000_S4000000x1_0 v

theorem col_apply (v : S4000000.Idx → α) (n : Fin 4000000) : col v (ix2 n 0) = v (ix1 n) := by
  unfold col
  refine broadcastInDim_apply _ bcast_S4000000_S4000000x1_0 v _ _ (fun a => ?_)
  match a with
  | ⟨0, _⟩ => rfl

/-- Three columns side by side: entry (n, a) is entry n of the a-th. -/
theorem cols_apply (u0 u1 u2 : S4000000x1.Idx → α) (n : Fin 4000000) :
    concatenate S4000000x3 1 [⟨S4000000x1, u0⟩, ⟨S4000000x1, u1⟩, ⟨S4000000x1, u2⟩]
        concatenates_S4000000x1_S4000000x1_S4000000x1_S4000000x3_d1 (ix2 n 0) = u0 (ix2 n 0)
    ∧ concatenate S4000000x3 1 [⟨S4000000x1, u0⟩, ⟨S4000000x1, u1⟩, ⟨S4000000x1, u2⟩]
        concatenates_S4000000x1_S4000000x1_S4000000x1_S4000000x3_d1 (ix2 n 1) = u1 (ix2 n 0)
    ∧ concatenate S4000000x3 1 [⟨S4000000x1, u0⟩, ⟨S4000000x1, u1⟩, ⟨S4000000x1, u2⟩]
        concatenates_S4000000x1_S4000000x1_S4000000x1_S4000000x3_d1 (ix2 n 2) = u2 (ix2 n 0) := by
  refine ⟨?_, ?_, ?_⟩
  · refine concatenate_apply_piece 1 [⟨S4000000x1, u0⟩, ⟨S4000000x1, u1⟩, ⟨S4000000x1, u2⟩] concatenates_S4000000x1_S4000000x1_S4000000x1_S4000000x3_d1 (ix2 n 0) 0 (by show 0 < 3; omega) S4000000x1 u0 rfl rfl 0 rfl (ix2 n 0) (fun b hb => ?_) rfl
    match b with
    | ⟨0, _⟩ => rfl
    | ⟨1, _⟩ => exact absurd rfl hb
  · refine concatenate_apply_piece 1 [⟨S4000000x1, u0⟩, ⟨S4000000x1, u1⟩, ⟨S4000000x1, u2⟩] concatenates_S4000000x1_S4000000x1_S4000000x1_S4000000x3_d1 (ix2 n 1) 1 (by show 1 < 3; omega) S4000000x1 u1 rfl rfl 1 rfl (ix2 n 0) (fun b hb => ?_) rfl
    match b with
    | ⟨0, _⟩ => rfl
    | ⟨1, _⟩ => exact absurd rfl hb
  · refine concatenate_apply_piece 1 [⟨S4000000x1, u0⟩, ⟨S4000000x1, u1⟩, ⟨S4000000x1, u2⟩] concatenates_S4000000x1_S4000000x1_S4000000x1_S4000000x3_d1 (ix2 n 2) 2 (by show 2 < 3; omega) S4000000x1 u2 rfl rfl 2 rfl (ix2 n 0) (fun b hb => ?_) rfl
    match b with
    | ⟨0, _⟩ => rfl
    | ⟨1, _⟩ => exact absurd rfl hb

end layout

/-! ## The lines after the launch -/

/-- A concatenation's result, its three operands' contents each at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

variable (m : (ℓ : Loc nD τ sig) → Buf (Elt F) ℓ) (c : Dev nD)

/-- The lines after the launch read the launch's result arrays as the launch left them. -/
theorem wa (w : Fin 16) : Pipeline.withArrays spec0 c (V0 m c) (fun w => (dats m 0 c).arrAt w cfg0.N) (Proc.devRef .tc (Pipeline.arrRef spec0 w))
    = (dats m 0 c).arrAt w cfg0.N :=
  Pipeline.withArrays_arr spec0 launch0.win.arr_inj c _ _ w

/-- The first result is the first result array, flattened and cut. -/
theorem tail_first : (Pipeline.afterTail₀ cfgs (dats m) 0 (V0 m) [hostOps1] c main_v34 : S4000000.Idx → Elt F .f32)
    = flat ((dats m 0 c).arrAt 12 cfg0.N : S32000x128.Idx → Elt F .f32) := by
  unfold Pipeline.afterTail₀
  show StableHlo.after hostOps1 _ (Proc.devRef .tc main_v34) = _
  after_results
  rw [show Pipeline.withArrays (cfgs 0).spec c (V0 m c) (fun w => (dats m 0 c).arrAt w (cfgs 0).N) (Proc.devRef .tc main_v32_0)
      = (dats m 0 c).arrAt 12 cfg0.N from wa m c 12]
  rfl

set_option maxHeartbeats 2000000 in
/-- The second result is the other three, each flattened and cut, side by side as columns. -/
theorem tail_second : (Pipeline.afterTail₀ cfgs (dats m) 0 (V0 m) [hostOps1] c main_v44 : S4000000x3.Idx → Elt F .f32)
    = concatenate S4000000x3 1
        [⟨S4000000x1, col (flat ((dats m 0 c).arrAt 13 cfg0.N : S32000x128.Idx → Elt F .f32))⟩,
         ⟨S4000000x1, col (flat ((dats m 0 c).arrAt 14 cfg0.N : S32000x128.Idx → Elt F .f32))⟩,
         ⟨S4000000x1, col (flat ((dats m 0 c).arrAt 15 cfg0.N : S32000x128.Idx → Elt F .f32))⟩]
        concatenates_S4000000x1_S4000000x1_S4000000x1_S4000000x3_d1 := by
  unfold Pipeline.afterTail₀
  show StableHlo.after hostOps1 _ (Proc.devRef .tc main_v44) = _
  conv_lhs => simp only [hostOps1, StableHlo.after_cons, StableHlo.after_nil]
  rw [nary3_result]
  repeat (first
    | rw [StableHlo.unary_result] | rw [StableHlo.reshape_result]
    | (rw [StableHlo.unary_result_ne]; rotate_left; decide)
    | (rw [StableHlo.reshape_result_ne]; rotate_left; decide))
  rw [show Pipeline.withArrays (cfgs 0).spec c (V0 m c) (fun w => (dats m 0 c).arrAt w (cfgs 0).N) (Proc.devRef .tc main_v32_1)
      = (dats m 0 c).arrAt 13 cfg0.N from wa m c 13,
    show Pipeline.withArrays (cfgs 0).spec c (V0 m c) (fun w => (dats m 0 c).arrAt w (cfgs 0).N) (Proc.devRef .tc main_v32_2)
      = (dats m 0 c).arrAt 14 cfg0.N from wa m c 14,
    show Pipeline.withArrays (cfgs 0).spec c (V0 m c) (fun w => (dats m 0 c).arrAt w (cfgs 0).N) (Proc.devRef .tc main_v32_3)
      = (dats m 0 c).arrAt 15 cfg0.N from wa m c 15]
  rfl

/-! ## The two results, entry by entry -/

section entries
variable (n : Fin 4000000)

theorem first_apply : (Pipeline.afterTail₀ cfgs (dats m) 0 (V0 m) [hostOps1] c main_v34 : S4000000.Idx → Elt F .f32) (ix1 n)
    = ((dats m 0 c).arrAt 12 cfg0.N : S32000x128.Idx → Elt F .f32)
        (ix2 ⟨n.val / 128, by have := n.isLt; omega⟩ ⟨n.val % 128, Nat.mod_lt _ (by decide)⟩) := by
  rw [tail_first, flat_apply]

theorem second_apply_0 : (Pipeline.afterTail₀ cfgs (dats m) 0 (V0 m) [hostOps1] c main_v44 : S4000000x3.Idx → Elt F .f32) (ix2 n 0)
    = ((dats m 0 c).arrAt 13 cfg0.N : S32000x128.Idx → Elt F .f32)
        (ix2 ⟨n.val / 128, by have := n.isLt; omega⟩ ⟨n.val % 128, Nat.mod_lt _ (by decide)⟩) := by
  rw [tail_second, (cols_apply _ _ _ n).1, col_apply, flat_apply]
theorem second_apply_1 : (Pipeline.afterTail₀ cfgs (dats m) 0 (V0 m) [hostOps1] c main_v44 : S4000000x3.Idx → Elt F .f32) (ix2 n 1)
    = ((dats m 0 c).arrAt 14 cfg0.N : S32000x128.Idx → Elt F .f32)
        (ix2 ⟨n.val / 128, by have := n.isLt; omega⟩ ⟨n.val % 128, Nat.mod_lt _ (by decide)⟩) := by
  rw [tail_second, (cols_apply _ _ _ n).2.1, col_apply, flat_apply]
theorem second_apply_2 : (Pipeline.afterTail₀ cfgs (dats m) 0 (V0 m) [hostOps1] c main_v44 : S4000000x3.Idx → Elt F .f32) (ix2 n 2)
    = ((dats m 0 c).arrAt 15 cfg0.N : S32000x128.Idx → Elt F .f32)
        (ix2 ⟨n.val / 128, by have := n.isLt; omega⟩ ⟨n.val % 128, Nat.mod_lt _ (by decide)⟩) := by
  rw [tail_second, (cols_apply _ _ _ n).2.2, col_apply, flat_apply]

end entries

end Cert.KernelIdeal.Hand

end
-- ==== Proof.Spec.lean ====
/-
  The quadric grid sampled at scattered points, as two whole-array functions of the argument arrays.

  A cell of the 128 x 128 x 128 grid is named by one flat index w in [0, 128^3), read in C order: its
  coordinates are cx = w / 128^2, cy = (w / 128) mod 128, cz = w mod 128. The cell's quadric has the
  diagonal quadratic part (xl cx, yl cy, zl cz) and, the same for every cell, the linear part
  (off 0, off 1, off 2) and the constant off 3. For the point p of a stream with cell index w:

    sdf    = xl cx * p0 * p0 + yl cy * p1 * p1 + zl cz * p2 * p2 + off 0 * p0 + off 1 * p1 + off 2 * p2 + off 3
    g_a    = 2 * q_a * p_a + off a                    (the quadric's gradient, a = 0, 1, 2)
    normal = g_a * rsqrt (g_0 * g_0 + g_1 * g_1 + g_2 * g_2 + eps)

  Everything is over the extended reals; the sums are associated to the left, in the order written. The
  two float literals (2 and eps) are kept as the words both programs print.
-/
import Idealize.ShloMosaic.PureOps.Ideal
import Idealize.ShloMosaic.Lib.ValueIdx

noncomputable section

namespace Cert.Quadric

open Idealize.ShloMosaic Idealize.ShloMosaic.ValueIdx

/-- The point lists: N = 4000000 points of three coordinates. -/
abbrev SPts : Shape := ⟨2, ![4000000, 3]⟩
/-- One value per point. -/
abbrev SN : Shape := ⟨1, ![4000000]⟩
/-- A per-axis table of the grid. -/
abbrev STab : Shape := ⟨1, ![128]⟩
/-- The shared linear part and constant. -/
abbrev SOff : Shape := ⟨1, ![4]⟩

/-- First grid coordinate of the flat cell index `w`. -/
def cx (w : BitVec 32) : Fin 128 := ⟨w.toNat / 16384 % 128, Nat.mod_lt _ (by decide)⟩
/-- Second grid coordinate of the flat cell index `w`. -/
def cy (w : BitVec 32) : Fin 128 := ⟨w.toNat / 128 % 128, Nat.mod_lt _ (by decide)⟩
/-- Third grid coordinate of the flat cell index `w`. -/
def cz (w : BitVec 32) : Fin 128 := ⟨w.toNat % 128, Nat.mod_lt _ (by decide)⟩

/-- Every cell index of the list names a cell of the grid: it lies in [0, 128^3). -/
def InRange (idx : SN.Idx → BitVec 32) : Prop := ∀ n, (idx n).toNat < 2097152

/-- The literal 2 of the gradient. -/
def two : EReal := Ideal.ofBits .f32 0x40000000#32
/-- The literal added under the reciprocal square root. -/
def eps : EReal := Ideal.ofBits .f32 0x2B8CBCCC#32

section
variable (p : SPts.Idx → EReal) (idx : SN.Idx → BitVec 32) (xl yl zl : STab.Idx → EReal) (off : SOff.Idx → EReal)

/-- The quadric of point `n`'s cell evaluated at the point. -/
def sdfAt (n : Fin 4000000) : EReal :=
  xl (ix1 (cx (idx (ix1 n)))) * p (ix2 n 0) * p (ix2 n 0) + yl (ix1 (cy (idx (ix1 n)))) * p (ix2 n 1) * p (ix2 n 1)
    + zl (ix1 (cz (idx (ix1 n)))) * p (ix2 n 2) * p (ix2 n 2)
    + off (ix1 0) * p (ix2 n 0) + off (ix1 1) * p (ix2 n 1) + off (ix1 2) * p (ix2 n 2) + off (ix1 3)

/-- The gradient's first component at point `n`. -/
def g0 (n : Fin 4000000) : EReal := two * xl (ix1 (cx (idx (ix1 n)))) * p (ix2 n 0) + off (ix1 0)
/-- The gradient's second component at point `n`. -/
def g1 (n : Fin 4000000) : EReal := two * yl (ix1 (cy (idx (ix1 n)))) * p (ix2 n 1) + off (ix1 1)
/-- The gradient's third component at point `n`. -/
def g2 (n : Fin 4000000) : EReal := two * zl (ix1 (cz (idx (ix1 n)))) * p (ix2 n 2) + off (ix1 2)

/-- The reciprocal length of the gradient at point `n`, regularised by `eps`. -/
def invLen (n : Fin 4000000) : EReal :=
  Ideal.rsqrt (g0 p idx xl off n * g0 p idx xl off n + g1 p idx yl off n * g1 p idx yl off n
    + g2 p idx zl off n * g2 p idx zl off n + eps)

/-- The three components of the unit normal at point `n`. -/
def n0At (n : Fin 4000000) : EReal := g0 p idx xl off n * invLen p idx xl yl zl off n
def n1At (n : Fin 4000000) : EReal := g1 p idx yl off n * invLen p idx xl yl zl off n
def n2At (n : Fin 4000000) : EReal := g2 p idx zl off n * invLen p idx xl yl zl off n

/-- The first result: the signed-distance values, one per point. -/
def sdfArr : SN.Idx → EReal := fun j => sdfAt p idx xl yl zl off (j 0)

/-- The second result: the unit normals, three components per point. -/
def normalArr : SPts.Idx → EReal := fun j =>
  match j 1 with
  | ⟨0, _⟩ => n0At p idx xl yl zl off (j 0)
  | ⟨1, _⟩ => n1At p idx xl yl zl off (j 0)
  | ⟨_ + 2, _⟩ => n2At p idx xl yl zl off (j 0)

end

end Cert.Quadric

end
-- ==== Proof.BlockValue.lean ====
/-
  One entry of each result block. Entry (r, l) of a block belongs to one point; its cell index w is split into
  the fields cx w, cy w, cz w (each below 128 when w is below 128^3), each field picks a lane of its table, and
  the rest is arithmetic on that entry alone:

    sdf    = xl cx * p0 * p0 + yl cy * p1 * p1 + zl cz * p2 * p2 + off 0 * p0 + off 1 * p1 + off 2 * p2 + off 3
    g_a    = 2 * q_a * p_a + off a
    normal = g_a * rsqrt (g_0 * g_0 + g_1 * g_1 + g_2 * g_2 + eps)
-/
import proofs.«428591_j52295521796844_3_alg».proof.Proof.FrameKI
import proofs.«428591_j52295521796844_3_alg».proof.Proof.Spec
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Hand

open Cert.KernelIdeal Cert.KernelIdeal.Gen Cert.Quadric
open Idealize.ShloMosaic Idealize.ShloMosaic.ValueIdx

/-! ## Words: the three fields of a cell index -/

/-- A lane index as the gather takes it: a negative word is moved up by the table's length. -/
def wrap (v : BitVec 32) : BitVec 32 := Scalar.select (IntOp.cmpi .slt v 0#32) (IntOp.addi v 128#32) v

/-- A word with a clear sign bit is not negative, so it is taken as it is. -/
theorem wrap_of_lt (v : BitVec 32) (hv : v.toNat < 2 ^ 31) : wrap v = v := by
  unfold wrap Scalar.select
  have h0 : (0#32 : BitVec 32).toNat < 2 ^ 31 := by decide
  have hn : ¬ IntOp.cmpi .slt v 0#32 = 1#1 := fun hc => by
    have := (StableHlo.Predicate.slt_iff_toNat hv h0).mp hc
    simp at this
  exact if_neg hn

/-- An arithmetic shift right of a word with a clear sign bit, by an amount below the width, is a division by a
    power of two. -/
theorem toNat_shrsi (w : BitVec 32) (hw : w.toNat < 2 ^ 31) (n : Nat) (hn : n < 32) :
    (IntOp.shrsi .vector w (BitVec.ofNat 32 n)).toNat = w.toNat / 2 ^ n := by
  have hnn : (BitVec.ofNat 32 n).toNat = n := by simp [BitVec.toNat_ofNat]; omega
  unfold IntOp.shrsi
  rw [if_pos (by rw [hnn]; exact hn)]
  have hm : w.msb = false := BitVec.msb_eq_false_iff_two_mul_lt.mpr (by omega)
  rw [BitVec.toNat_sshiftRight'_of_msb_false hm, hnn, Nat.shiftRight_eq_div_pow]

/-- The mask of the low seven bits is the remainder by 128. -/
theorem toNat_andi127 (w : BitVec 32) : (IntOp.andi w 127#32).toNat = w.toNat % 128 := by
  unfold IntOp.andi
  rw [BitVec.toNat_and]
  exact Nat.and_two_pow_sub_one_eq_mod w.toNat 7

/-- The first field: the bits from 14 up. -/
theorem lane_x (w : BitVec 32) (h : w.toNat < 2097152) :
    (wrap (IntOp.shrsi .vector w 14#32)).toNat % 128 = (cx w).val := by
  have hs : (IntOp.shrsi .vector w 14#32).toNat = w.toNat / 16384 := toNat_shrsi w (by omega) 14 (by omega)
  rw [wrap_of_lt _ (by omega), hs]
  rfl

/-- The second field: bits 7 to 13. -/
theorem lane_y (w : BitVec 32) (h : w.toNat < 2097152) :
    (wrap (IntOp.andi (IntOp.shrsi .vector w 7#32) 127#32)).toNat % 128 = (cy w).val := by
  have hs : (IntOp.shrsi .vector w 7#32).toNat = w.toNat / 128 := toNat_shrsi w (by omega) 7 (by omega)
  have ha := toNat_andi127 (IntOp.shrsi .vector w 7#32)
  rw [wrap_of_lt _ (by omega), ha, hs]
  show w.toNat / 128 % 128 % 128 = w.toNat / 128 % 128
  omega

/-- The third field: bits 0 to 6. -/
theorem lane_z (w : BitVec 32) (h : w.toNat < 2097152) :
    (wrap (IntOp.andi w 127#32)).toNat % 128 = (cz w).val := by
  have ha := toNat_andi127 w
  rw [wrap_of_lt _ (by omega), ha]
  show w.toNat % 128 % 128 = w.toNat % 128
  omega

/-! ## Layout operations at an entry -/

/-- The whole-block rectangles sit at the origin. -/
theorem hz00 : (![0, 0] : Fin 2 → Nat) = fun _ => 0 := funext fun a => by fin_cases a <;> rfl

/-- A table's one row, repeated down the block. -/
theorem tabRowsX_apply (v : Vec Ideal S1x128 .f32) (r : Fin 1000) (c : Fin 128) : k0_pay6 v (ix2 r c) = v (ix2 0 c) := by
  unfold k0_pay6
  rw [shapeCast_self, shapeCast_self]
  exact broadcastTo_1b_ab_apply v broadcasts_S1x128_S1000x128 r c
theorem tabRowsY_apply (v : Vec Ideal S1x128 .f32) (r : Fin 1000) (c : Fin 128) : k0_pay7 v (ix2 r c) = v (ix2 0 c) := by
  unfold k0_pay7
  rw [shapeCast_self, shapeCast_self]
  exact broadcastTo_1b_ab_apply v broadcasts_S1x128_S1000x128 r c
theorem tabRowsZ_apply (v : Vec Ideal S1x128 .f32) (r : Fin 1000) (c : Fin 128) : k0_pay8 v (ix2 r c) = v (ix2 0 c) := by
  unfold k0_pay8
  rw [shapeCast_self, shapeCast_self]
  exact broadcastTo_1b_ab_apply v broadcasts_S1x128_S1000x128 r c

/-- A one-entry vector spread over the block. -/
theorem spread11_apply (v : FVec Ideal S1x1 .f32) (r : Fin 1000) (l : Fin 128) :
    broadcastTo S1000x128 v broadcasts_S1x1_S1000x128 (ix2 r l) = v (ix2 0 0) :=
  broadcastTo_apply v broadcasts_S1x1_S1000x128 (ix2 r l) (ix2 0 0) fun a =>
    match a with
    | ⟨0, _⟩ => rfl
    | ⟨1, _⟩ => rfl

/-- The four shared coefficients, each cut out as a one-entry vector. -/
theorem off0_apply (off : Vec Ideal S1x4 .f32) : k0_pay10 off (ix2 0 0) = off (ix2 0 0) := by
  unfold k0_pay10 k0_pay9
  rw [shapeCast_self]
  exact slice2_axis1_eq 0 off slices_S1x4_o0_0_S1x1 0 0
theorem off1_apply (off : Vec Ideal S1x4 .f32) : k0_pay11 off (ix2 0 0) = off (ix2 0 1) := by
  unfold k0_pay11 k0_pay9
  rw [shapeCast_self]
  exact slice2_axis1_eq 1 off slices_S1x4_o0_1_S1x1 0 0
theorem off2_apply (off : Vec Ideal S1x4 .f32) : k0_pay12 off (ix2 0 0) = off (ix2 0 2) := by
  unfold k0_pay12 k0_pay9
  rw [shapeCast_self]
  exact slice2_axis1_eq 2 off slices_S1x4_o0_2_S1x1 0 0
theorem off3_apply (off : Vec Ideal S1x4 .f32) : k0_pay13 off (ix2 0 0) = off (ix2 0 3) := by
  unfold k0_pay13 k0_pay9
  rw [shapeCast_self]
  exact slice2_axis1_eq 3 off slices_S1x4_o0_3_S1x1 0 0

/-! ## The gather -/

/-- The lane gather of the kernel: along the lanes, by the wrapped index vector passed through a trailing unit axis
    and back. At entry (r, l) it reads the source's row r at the lane the wrapped index names, modulo 128. -/
theorem gather_apply (x : FVec Ideal S1000x128 .f32) (v : IVec S1000x128 32) (r : Fin 1000) (l : Fin 128) :
    dynamicGather (s := S1000x128) 1 x
      (shapeCast S1000x128 (shapeCast S1000x128x1
        (select (cmpi .slt v (broadcast S1000x128 0#32)) (addi v (broadcast S1000x128 128#32)) v)
        shapeCasts_S1000x128_S1000x128x1) shapeCasts_S1000x128x1_S1000x128) (ix2 r l)
    = x (ix2 r ⟨(wrap (v (ix2 r l))).toNat % 128, Nat.mod_lt _ (by decide)⟩) := by
  rw [shapeCast_shapeCast]
  unfold dynamicGather
  refine congrArg x (funext fun b => ?_)
  match b with
  | ⟨0, _⟩ => rfl
  | ⟨1, _⟩ => rfl

/-- A table's rows gathered by an index vector: the table at the lane the wrapped index names. -/
theorem tabGather_apply (x : FVec Ideal S1000x128 .f32) (t : Vec Ideal S1x128 .f32)
    (hx : ∀ (r : Fin 1000) (c : Fin 128), x (ix2 r c) = t (ix2 0 c)) (v : IVec S1000x128 32) (r : Fin 1000) (l : Fin 128) :
    dynamicGather (s := S1000x128) 1 x
      (shapeCast S1000x128 (shapeCast S1000x128x1
        (select (cmpi .slt v (broadcast S1000x128 0#32)) (addi v (broadcast S1000x128 128#32)) v)
        shapeCasts_S1000x128_S1000x128x1) shapeCasts_S1000x128x1_S1000x128) (ix2 r l)
    = t (ix2 0 ⟨(wrap (v (ix2 r l))).toNat % 128, Nat.mod_lt _ (by decide)⟩) :=
  (gather_apply x v r l).trans (hx r _)

/-- The three index vectors at an entry. -/
theorem idxX_apply (w : Vec Ideal S1000x128 .i32) (j : S1000x128.Idx) :
    k0_pay15 w j = IntOp.shrsi .vector (w j) 14#32 := by
  unfold k0_pay15 k0_pay14; rw [shapeCast_self]; rfl
theorem idxY_apply (w : Vec Ideal S1000x128 .i32) (j : S1000x128.Idx) :
    k0_pay16 w j = IntOp.andi (IntOp.shrsi .vector (w j) 7#32) 127#32 := by
  unfold k0_pay16 k0_pay14; rw [shapeCast_self]; rfl
theorem idxZ_apply (w : Vec Ideal S1000x128 .i32) (j : S1000x128.Idx) :
    k0_pay17 w j = IntOp.andi (w j) 127#32 := by
  unfold k0_pay17 k0_pay14; rw [shapeCast_self]; rfl
theorem idxX'_apply (w : Vec Ideal S1000x128 .i32) (j : S1000x128.Idx) :
    k0_pay19 w j = IntOp.shrsi .vector (w j) 14#32 := by
  unfold k0_pay19 k0_pay18; rw [shapeCast_self]; rfl
theorem idxY'_apply (w : Vec Ideal S1000x128 .i32) (j : S1000x128.Idx) :
    k0_pay20 w j = IntOp.andi (IntOp.shrsi .vector (w j) 7#32) 127#32 := by
  unfold k0_pay20 k0_pay18; rw [shapeCast_self]; rfl
theorem idxZ'_apply (w : Vec Ideal S1000x128 .i32) (j : S1000x128.Idx) :
    k0_pay21 w j = IntOp.andi (w j) 127#32 := by
  unfold k0_pay21 k0_pay18; rw [shapeCast_self]; rfl

/-! ## The six table reads -/

section
variable (t : Vec Ideal S1x128 .f32) (idx : Vec Ideal S1000x128 .i32) (r : Fin 1000) (l : Fin 128)
  (h : (idx (ix2 r l) : BitVec 32).toNat < 2097152)
include h

/-- First stream, first table: the lane is the first field of the entry's cell index. -/
theorem xLane_apply : k0_pay22 (k0_pay6 t) (k0_pay15 idx) 0#32 (ix2 r l) = t (ix2 0 (cx (idx (ix2 r l)))) := by
  refine (tabGather_apply (k0_pay6 t) t (tabRowsX_apply t) (k0_pay15 idx) r l).trans ?_
  refine congrArg (fun c => t (ix2 0 c)) (Fin.ext ?_)
  show (wrap (k0_pay15 idx (ix2 r l))).toNat % 128 = (cx (idx (ix2 r l))).val
  rw [idxX_apply]
  exact lane_x _ h
/-- First stream, second table. -/
theorem yLane_apply : k0_pay23 (k0_pay7 t) (k0_pay16 idx) (ix2 r l) = t (ix2 0 (cy (idx (ix2 r l)))) := by
  refine (tabGather_apply (k0_pay7 t) t (tabRowsY_apply t) (k0_pay16 idx) r l).trans ?_
  refine congrArg (fun c => t (ix2 0 c)) (Fin.ext ?_)
  show (wrap (k0_pay16 idx (ix2 r l))).toNat % 128 = (cy (idx (ix2 r l))).val
  rw [idxY_apply]
  exact lane_y _ h
/-- First stream, third table. -/
theorem zLane_apply : k0_pay24 (k0_pay8 t) (k0_pay17 idx) (ix2 r l) = t (ix2 0 (cz (idx (ix2 r l)))) := by
  refine (tabGather_apply (k0_pay8 t) t (tabRowsZ_apply t) (k0_pay17 idx) r l).trans ?_
  refine congrArg (fun c => t (ix2 0 c)) (Fin.ext ?_)
  show (wrap (k0_pay17 idx (ix2 r l))).toNat % 128 = (cz (idx (ix2 r l))).val
  rw [idxZ_apply]
  exact lane_z _ h
/-- Second stream, first table. -/
theorem xLane'_apply : k0_pay25 (k0_pay6 t) (k0_pay19 idx) (ix2 r l) = t (ix2 0 (cx (idx (ix2 r l)))) := by
  refine (tabGather_apply (k0_pay6 t) t (tabRowsX_apply t) (k0_pay19 idx) r l).trans ?_
  refine congrArg (fun c => t (ix2 0 c)) (Fin.ext ?_)
  show (wrap (k0_pay19 idx (ix2 r l))).toNat % 128 = (cx (idx (ix2 r l))).val
  rw [idxX'_apply]
  exact lane_x _ h
/-- Second stream, second table. -/
theorem yLane'_apply : k0_pay26 (k0_pay7 t) (k0_pay20 idx) (ix2 r l) = t (ix2 0 (cy (idx (ix2 r l)))) := by
  refine (tabGather_apply (k0_pay7 t) t (tabRowsY_apply t) (k0_pay20 idx) r l).trans ?_
  refine congrArg (fun c => t (ix2 0 c)) (Fin.ext ?_)
  show (wrap (k0_pay20 idx (ix2 r l))).toNat % 128 = (cy (idx (ix2 r l))).val
  rw [idxY'_apply]
  exact lane_y _ h
/-- Second stream, third table. -/
theorem zLane'_apply : k0_pay27 (k0_pay8 t) (k0_pay21 idx) (ix2 r l) = t (ix2 0 (cz (idx (ix2 r l)))) := by
  refine (tabGather_apply (k0_pay8 t) t (tabRowsZ_apply t) (k0_pay21 idx) r l).trans ?_
  refine congrArg (fun c => t (ix2 0 c)) (Fin.ext ?_)
  show (wrap (k0_pay21 idx (ix2 r l))).toNat % 128 = (cz (idx (ix2 r l))).val
  rw [idxZ'_apply]
  exact lane_z _ h

end

/-! ## The arithmetic at an entry -/

section
variable (r : Fin 1000) (l : Fin 128)

/-- The quadric's payload: the three squares weighted by the table lanes, the linear part and the constant, summed in
    the kernel's order. -/
theorem quadric_apply (c0 c1 c2 c3 : FVec Ideal S1x1 .f32) (qx qy qz : FVec Ideal S1000x128 .f32)
    (p0 p1 p2 : Vec Ideal S1000x128 .f32) :
    k0_pay28 c0 c1 c2 c3 qx qy qz p0 p1 p2 (ix2 r l)
    = qx (ix2 r l) * p0 (ix2 r l) * p0 (ix2 r l) + qy (ix2 r l) * p1 (ix2 r l) * p1 (ix2 r l)
      + qz (ix2 r l) * p2 (ix2 r l) * p2 (ix2 r l)
      + c0 (ix2 0 0) * p0 (ix2 r l) + c1 (ix2 0 0) * p1 (ix2 r l) + c2 (ix2 0 0) * p2 (ix2 r l) + c3 (ix2 0 0) := by
  unfold k0_pay28
  simp only [shapeCast_self]
  simp only [addf_apply, mulf_apply, spread11_apply]

/-- A gradient component of the first two axes: twice the lane times the coordinate, plus the linear coefficient. -/
theorem gradX_apply (c : FVec Ideal S1x1 .f32) (q : FVec Ideal S1000x128 .f32) (p : Vec Ideal S1000x128 .f32) :
    k0_pay30 c q p (ix2 r l) = two * q (ix2 r l) * p (ix2 r l) + c (ix2 0 0) := by
  unfold k0_pay30
  simp only [shapeCast_self]
  simp only [addf_apply, mulf_apply, spread11_apply]
  rfl
theorem gradY_apply (c : FVec Ideal S1x1 .f32) (q : FVec Ideal S1000x128 .f32) (p : Vec Ideal S1000x128 .f32) :
    k0_pay31 c q p (ix2 r l) = two * q (ix2 r l) * p (ix2 r l) + c (ix2 0 0) := by
  unfold k0_pay31
  simp only [shapeCast_self]
  simp only [addf_apply, mulf_apply, spread11_apply]
  rfl
/-- The third component is written with the factor 2 as a block of its own. -/
theorem gradZ_apply (c : FVec Ideal S1x1 .f32) (q p t : FVec Ideal S1000x128 .f32) :
    k0_pay1 c q p t (ix2 r l) = t (ix2 r l) * q (ix2 r l) * p (ix2 r l) + c (ix2 0 0) := by
  unfold k0_pay1
  simp only [addf_apply, mulf_apply, spread11_apply]
/-- That block reads 2 everywhere. -/
theorem twoBlk_apply : (k0_pay32 : FVec Ideal S1000x128 .f32) (ix2 r l) = two := rfl
/-- The third coordinate plane passes through unchanged. -/
theorem plane_eq (p : Vec Ideal S1000x128 .f32) : k0_pay29 p = p := by
  unfold k0_pay29; rw [shapeCast_self]

/-- The reciprocal length: of the sum of the three squares, in the kernel's order, and the regulariser. -/
theorem invLen_apply (c : FVec Ideal S1x1 .f32) (q p gx gy t : FVec Ideal S1000x128 .f32) :
    k0_pay2 c q p gx gy t (ix2 r l)
    = Ideal.rsqrt (gx (ix2 r l) * gx (ix2 r l) + gy (ix2 r l) * gy (ix2 r l)
        + k0_pay1 c q p t (ix2 r l) * k0_pay1 c q p t (ix2 r l) + eps) := rfl

end

section
variable (px py pz : Vec Ideal S1000x128 .f32) (idx : Vec Ideal S1000x128 .i32) (xl yl zl : Vec Ideal S1x128 .f32)
  (off : Vec Ideal S1x4 .f32) (r : Fin 1000) (l : Fin 128)

/-- The gradient's components at one entry of a block of the first stream. -/
def gxE : EReal := two * xl (ix2 0 (cx (idx (ix2 r l)))) * px (ix2 r l) + off (ix2 0 0)
def gyE : EReal := two * yl (ix2 0 (cy (idx (ix2 r l)))) * py (ix2 r l) + off (ix2 0 1)
def gzE : EReal := two * zl (ix2 0 (cz (idx (ix2 r l)))) * pz (ix2 r l) + off (ix2 0 2)
/-- The regularised reciprocal length of the gradient at that entry. -/
def invE : EReal :=
  Ideal.rsqrt (gxE px idx xl off r l * gxE px idx xl off r l + gyE py idx yl off r l * gyE py idx yl off r l
    + gzE pz idx zl off r l * gzE pz idx zl off r l + eps)

/-- An entry of the quadric's block. -/
theorem sdfBlk_apply (h : (idx (ix2 r l) : BitVec 32).toNat < 2097152) :
    sdfBlk px py pz idx xl yl zl off (ix2 r l)
    = xl (ix2 0 (cx (idx (ix2 r l)))) * px (ix2 r l) * px (ix2 r l) + yl (ix2 0 (cy (idx (ix2 r l)))) * py (ix2 r l) * py (ix2 r l)
      + zl (ix2 0 (cz (idx (ix2 r l)))) * pz (ix2 r l) * pz (ix2 r l)
      + off (ix2 0 0) * px (ix2 r l) + off (ix2 0 1) * py (ix2 r l) + off (ix2 0 2) * pz (ix2 r l) + off (ix2 0 3) := by
  unfold sdfBlk
  rw [View.canon_unit_zero hz00]
  simp only [View.ld_unit_zero (S := S1000x128) hz00, View.ld_unit_zero (S := S1x128) hz00, View.ld_unit_zero (S := S1x4) hz00]
  rw [quadric_apply, xLane'_apply xl idx r l h, yLane'_apply yl idx r l h, zLane'_apply zl idx r l h,
    off0_apply, off1_apply, off2_apply, off3_apply]

/-- The three gradient components and the reciprocal length, as entries of the kernel's own blocks. -/
theorem gx_entry (h : (idx (ix2 r l) : BitVec 32).toNat < 2097152) :
    k0_pay30 (k0_pay10 off) (k0_pay22 (k0_pay6 xl) (k0_pay15 idx) 0#32) px (ix2 r l) = gxE px idx xl off r l := by
  rw [gradX_apply, xLane_apply xl idx r l h, off0_apply]; rfl
theorem gy_entry (h : (idx (ix2 r l) : BitVec 32).toNat < 2097152) :
    k0_pay31 (k0_pay11 off) (k0_pay23 (k0_pay7 yl) (k0_pay16 idx)) py (ix2 r l) = gyE py idx yl off r l := by
  rw [gradY_apply, yLane_apply yl idx r l h, off1_apply]; rfl
theorem gz_entry (h : (idx (ix2 r l) : BitVec 32).toNat < 2097152) :
    k0_pay1 (k0_pay12 off) (k0_pay24 (k0_pay8 zl) (k0_pay17 idx)) (k0_pay29 pz) k0_pay32 (ix2 r l) = gzE pz idx zl off r l := by
  rw [gradZ_apply, zLane_apply zl idx r l h, off2_apply, plane_eq, twoBlk_apply]; rfl
theorem inv_entry (h : (idx (ix2 r l) : BitVec 32).toNat < 2097152) :
    k0_pay2 (k0_pay12 off) (k0_pay24 (k0_pay8 zl) (k0_pay17 idx)) (k0_pay29 pz)
      (k0_pay30 (k0_pay10 off) (k0_pay22 (k0_pay6 xl) (k0_pay15 idx) 0#32) px)
      (k0_pay31 (k0_pay11 off) (k0_pay23 (k0_pay7 yl) (k0_pay16 idx)) py) k0_pay32 (ix2 r l)
    = invE px py pz idx xl yl zl off r l := by
  rw [invLen_apply, gx_entry px idx xl off r l h, gy_entry py idx yl off r l h, gz_entry pz idx zl off r l h]; rfl

/-- An entry of each block of the unit normal. -/
theorem nxBlk_apply (h : (idx (ix2 r l) : BitVec 32).toNat < 2097152) :
    nxBlk px py pz idx xl yl zl off (ix2 r l) = gxE px idx xl off r l * invE px py pz idx xl yl zl off r l := by
  unfold nxBlk
  rw [View.canon_unit_zero hz00]
  simp only [View.ld_unit_zero (S := S1000x128) hz00, View.ld_unit_zero (S := S1x128) hz00, View.ld_unit_zero (S := S1x4) hz00]
  unfold k0_pay3
  rw [mulf_apply, gx_entry px idx xl off r l h, inv_entry px py pz idx xl yl zl off r l h]
theorem nyBlk_apply (h : (idx (ix2 r l) : BitVec 32).toNat < 2097152) :
    nyBlk px py pz idx xl yl zl off (ix2 r l) = gyE py idx yl off r l * invE px py pz idx xl yl zl off r l := by
  unfold nyBlk
  rw [View.canon_unit_zero hz00]
  simp only [View.ld_unit_zero (S := S1000x128) hz00, View.ld_unit_zero (S := S1x128) hz00, View.ld_unit_zero (S := S1x4) hz00]
  unfold k0_pay4
  rw [mulf_apply, gy_entry py idx yl off r l h, inv_entry px py pz idx xl yl zl off r l h]
theorem nzBlk_apply (h : (idx (ix2 r l) : BitVec 32).toNat < 2097152) :
    nzBlk px py pz idx xl yl zl off (ix2 r l) = gzE pz idx zl off r l * invE px py pz idx xl yl zl off r l := by
  unfold nzBlk
  rw [View.canon_unit_zero hz00]
  simp only [View.ld_unit_zero (S := S1000x128) hz00, View.ld_unit_zero (S := S1x128) hz00, View.ld_unit_zero (S := S1x4) hz00]
  unfold k0_pay5
  rw [mulf_apply, gz_entry pz idx zl off r l h, inv_entry px py pz idx xl yl zl off r l h]

end

end Cert.KernelIdeal.Hand

end
-- ==== Proof.Arrays.lean ====
/-
  The arrays the launch is entered with, read at one entry, in terms of @main's arguments. A coordinate plane
  of a point list (or a list of cell indices) is sliced off, padded with zeros from 4000000 to 4096000 entries
  and laid out as 32000 rows of 128: entry (R, l) is entry R * 128 + l of the plane whenever that is below
  4000000. A table or the coefficient vector only gets a leading axis of extent one.
-/
import proofs.«428591_j52295521796844_3_alg».proof.Proof.FrameKI
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (c : Dev nD)

/-! ## The layout operations read at one entry, over any vector -/

section generic
variable {α : Type}

/-- A vector of 4000000 entries, padded behind to 4096000 and laid out as 32000 rows of 128, holds at (R, l)
    its own entry R * 128 + l whenever that is below 4000000: (R, l) is position R * 128 + l of the padded
    vector, and a position below the vector's extent is not in the padding. -/
theorem plane_apply (v : (⟨1, ![4000000]⟩ : Shape).Idx → α) {u : Shape} (z : u.Idx → α)
    (hp : (⟨1, ![4000000]⟩ : Shape).Pads (![0] : Fin 1 → Nat) ![96000] ![0] ⟨1, ![4096000]⟩) (hu : 0 < u.numel)
    (hc : (⟨1, ![4096000]⟩ : Shape).ShapeCasts ⟨2, ![32000, 128]⟩)
    (R : Fin 32000) (l : Fin 128) (h : R.val * 128 + l.val < 4000000) :
    shapeCast ⟨2, ![32000, 128]⟩ (pad ⟨1, ![4096000]⟩ ![0] ![96000] ![0] v z hp hu) hc (ix2 R l)
      = v (ix1 ⟨R.val * 128 + l.val, h⟩) := by
  refine (shapeCast_apply _ hc (ix2 R l) (ix1 (⟨R.val * 128 + l.val, by omega⟩ : Fin 4096000)) (by
    rw [Shape.rowMajor_val_two, Shape.rowMajor_val_one]; rfl)).trans ?_
  exact pad_apply_of_inside _ _ _ v z hp hu _ (ix1 ⟨R.val * 128 + l.val, h⟩) (fun a => by
    have ha : a = 0 := Subsingleton.elim _ _
    subst ha
    show R.val * 128 + l.val = 0 + (R.val * 128 + l.val) * (0 + 1); omega)

/-- Column k of a list of 4000000 triples, taken as a vector, holds at i the list's entry (i, k). -/
theorem column_apply (X : (⟨2, ![4000000, 3]⟩ : Shape).Idx → α) (k : Fin 3)
    (hs : (⟨2, ![4000000, 3]⟩ : Shape).Slices ![0, k.val] ⟨2, ![4000000, 1]⟩)
    (hc : (⟨2, ![4000000, 1]⟩ : Shape).ShapeCasts ⟨1, ![4000000]⟩) (i : Fin 4000000) :
    shapeCast ⟨1, ![4000000]⟩ (extractStridedSlice ⟨2, ![4000000, 1]⟩ ![0, k.val] X hs) hc (ix1 i) = X (ix2 i k) := by
  refine (shapeCast_apply _ hc (ix1 i) (ix2 i (0 : Fin 1)) (by
    rw [Shape.rowMajor_val_two, Shape.rowMajor_val_one]; show i.val * 1 + 0 = i.val; omega)).trans ?_
  exact slice2_axis1_apply k.val X hs i (0 : Fin 1) k (by show k.val = k.val + 0; omega)

end generic

/-! ## The arrays as terms of the arguments -/

/-- Runs the host lines before the launch at one buffer: what is left is the composition of the operations
    that feed it, over the arguments. -/
local macro "prefix_term" : tactic =>
  `(tactic| (dsimp only [V, V0]
             simp only [prefixOps, hostOps0, hostOps0_1, hostOps0_2, hostOps0_3, hostOps0_4, hostOps0_5, hostOps0_6, hostOps0_7,
               hostOps0_8, hostOps0_9, hostOps0_10, hostOps0_11, hostOps0_12, hostOps0_13, hostOps0_14, hostOps0_15, hostOps0_16,
               List.flatten_cons, List.flatten_nil, List.append_nil, List.cons_append, List.nil_append]
             after_results
             rfl))

section planes
variable (R : Fin 32000) (l : Fin 128) (h : R.val * 128 + l.val < 4000000)

/-- The three coordinate planes of the first point list. -/
theorem V_rpx : (V m c main_v3 : S32000x128.Idx → Elt F .f32) (ix2 R l)
    = (m ((c : Thread nD τ).loc main_arg0) : S4000000x3.Idx → Elt F .f32) (ix2 ⟨R.val * 128 + l.val, h⟩ 0) := by
  have e : (V m c main_v3 : S32000x128.Idx → Elt F .f32)
      = shapeCast S32000x128 (pad S4096000 ![0] ![96000] ![0]
          (shapeCast S4000000 (extractStridedSlice S4000000x1 ![0, 0]
            (m ((c : Thread nD τ).loc main_arg0) : S4000000x3.Idx → Elt F .f32) slices_S4000000x3_S4000000x1_0_0)
            shapeCasts_S4000000x1_S4000000)
          (sitofp (F := F) .f32 (constantI S_ 32 0#32)) pads_S4000000_S4096000_0960000 h_S_)
          shapeCasts_S4096000_S32000x128 := by
    prefix_term
  rw [e, plane_apply _ _ _ _ _ R l h]
  exact column_apply _ 0 _ _ _
theorem V_rpy : (V m c main_v7 : S32000x128.Idx → Elt F .f32) (ix2 R l)
    = (m ((c : Thread nD τ).loc main_arg0) : S4000000x3.Idx → Elt F .f32) (ix2 ⟨R.val * 128 + l.val, h⟩ 1) := by
  have e : (V m c main_v7 : S32000x128.Idx → Elt F .f32)
      = shapeCast S32000x128 (pad S4096000 ![0] ![96000] ![0]
          (shapeCast S4000000 (extractStridedSlice S4000000x1 ![0, 1]
            (m ((c : Thread nD τ).loc main_arg0) : S4000000x3.Idx → Elt F .f32) slices_S4000000x3_S4000000x1_0_1)
            shapeCasts_S4000000x1_S4000000)
          (sitofp (F := F) .f32 (constantI S_ 32 0#32)) pads_S4000000_S4096000_0960000 h_S_)
          shapeCasts_S4096000_S32000x128 := by
    prefix_term
  rw [e, plane_apply _ _ _ _ _ R l h]
  exact column_apply _ 1 _ _ _
theorem V_rpz : (V m c main_v11 : S32000x128.Idx → Elt F .f32) (ix2 R l)
    = (m ((c : Thread nD τ).loc main_arg0) : S4000000x3.Idx → Elt F .f32) (ix2 ⟨R.val * 128 + l.val, h⟩ 2) := by
  have e : (V m c main_v11 : S32000x128.Idx → Elt F .f32)
      = shapeCast S32000x128 (pad S4096000 ![0] ![96000] ![0]
          (shapeCast S4000000 (extractStridedSlice S4000000x1 ![0, 2]
            (m ((c : Thread nD τ).loc main_arg0) : S4000000x3.Idx → Elt F .f32) slices_S4000000x3_S4000000x1_0_2)
            shapeCasts_S4000000x1_S4000000)
          (sitofp (F := F) .f32 (constantI S_ 32 0#32)) pads_S4000000_S4096000_0960000 h_S_)
          shapeCasts_S4096000_S32000x128 := by
    prefix_term
  rw [e, plane_apply _ _ _ _ _ R l h]
  exact column_apply _ 2 _ _ _
/-- The first list of cell indices. -/
theorem V_ridx : (V m c main_v13 : S32000x128.Idx → Elt F .i32) (ix2 R l)
    = (m ((c : Thread nD τ).loc main_arg1) : S4000000.Idx → Elt F .i32) (ix1 ⟨R.val * 128 + l.val, h⟩) := by
  have e : (V m c main_v13 : S32000x128.Idx → Elt F .i32)
      = shapeCast S32000x128 (pad S4096000 ![0] ![96000] ![0]
          (m ((c : Thread nD τ).loc main_arg1) : S4000000.Idx → Elt F .i32)
          (constantI S_ 32 0#32) pads_S4000000_S4096000_0960000 h_S_)
          shapeCasts_S4096000_S32000x128 := by
    prefix_term
  rw [e, plane_apply _ _ _ _ _ R l h]
/-- The three coordinate planes of the second point list. -/
theorem V_spx : (V m c main_v17 : S32000x128.Idx → Elt F .f32) (ix2 R l)
    = (m ((c : Thread nD τ).loc main_arg2) : S4000000x3.Idx → Elt F .f32) (ix2 ⟨R.val * 128 + l.val, h⟩ 0) := by
  have e : (V m c main_v17 : S32000x128.Idx → Elt F .f32)
      = shapeCast S32000x128 (pad S4096000 ![0] ![96000] ![0]
          (shapeCast S4000000 (extractStridedSlice S4000000x1 ![0, 0]
            (m ((c : Thread nD τ).loc main_arg2) : S4000000x3.Idx → Elt F .f32) slices_S4000000x3_S4000000x1_0_0)
            shapeCasts_S4000000x1_S4000000)
          (sitofp (F := F) .f32 (constantI S_ 32 0#32)) pads_S4000000_S4096000_0960000 h_S_)
          shapeCasts_S4096000_S32000x128 := by
    prefix_term
  rw [e, plane_apply _ _ _ _ _ R l h]
  exact column_apply _ 0 _ _ _
theorem V_spy : (V m c main_v21 : S32000x128.Idx → Elt F .f32) (ix2 R l)
    = (m ((c : Thread nD τ).loc main_arg2) : S4000000x3.Idx → Elt F .f32) (ix2 ⟨R.val * 128 + l.val, h⟩ 1) := by
  have e : (V m c main_v21 : S32000x128.Idx → Elt F .f32)
      = shapeCast S32000x128 (pad S4096000 ![0] ![96000] ![0]
          (shapeCast S4000000 (extractStridedSlice S4000000x1 ![0, 1]
            (m ((c : Thread nD τ).loc main_arg2) : S4000000x3.Idx → Elt F .f32) slices_S4000000x3_S4000000x1_0_1)
            shapeCasts_S4000000x1_S4000000)
          (sitofp (F := F) .f32 (constantI S_ 32 0#32)) pads_S4000000_S4096000_0960000 h_S_)
          shapeCasts_S4096000_S32000x128 := by
    prefix_term
  rw [e, plane_apply _ _ _ _ _ R l h]
  exact column_apply _ 1 _ _ _
theorem V_spz : (V m c main_v25 : S32000x128.Idx → Elt F .f32) (ix2 R l)
    = (m ((c : Thread nD τ).loc main_arg2) : S4000000x3.Idx → Elt F .f32) (ix2 ⟨R.val * 128 + l.val, h⟩ 2) := by
  have e : (V m c main_v25 : S32000x128.Idx → Elt F .f32)
      = shapeCast S32000x128 (pad S4096000 ![0] ![96000] ![0]
          (shapeCast S4000000 (extractStridedSlice S4000000x1 ![0, 2]
            (m ((c : Thread nD τ).loc main_arg2) : S4000000x3.Idx → Elt F .f32) slices_S4000000x3_S4000000x1_0_2)
            shapeCasts_S4000000x1_S4000000)
          (sitofp (F := F) .f32 (constantI S_ 32 0#32)) pads_S4000000_S4096000_0960000 h_S_)
          shapeCasts_S4096000_S32000x128 := by
    prefix_term
  rw [e, plane_apply _ _ _ _ _ R l h]
  exact column_apply _ 2 _ _ _
/-- The second list of cell indices. -/
theorem V_sidx : (V m c main_v27 : S32000x128.Idx → Elt F .i32) (ix2 R l)
    = (m ((c : Thread nD τ).loc main_arg3) : S4000000.Idx → Elt F .i32) (ix1 ⟨R.val * 128 + l.val, h⟩) := by
  have e : (V m c main_v27 : S32000x128.Idx → Elt F .i32)
      = shapeCast S32000x128 (pad S4096000 ![0] ![96000] ![0]
          (m ((c : Thread nD τ).loc main_arg3) : S4000000.Idx → Elt F .i32)
          (constantI S_ 32 0#32) pads_S4000000_S4096000_0960000 h_S_)
          shapeCasts_S4096000_S32000x128 := by
    prefix_term
  rw [e, plane_apply _ _ _ _ _ R l h]

end planes

/-- The three tables and the coefficients. -/
theorem V_xl (k : Fin 128) : (V m c main_v28 : S1x128.Idx → Elt F .f32) (ix2 0 k)
    = (m ((c : Thread nD τ).loc main_arg4) : S128.Idx → Elt F .f32) (ix1 k) := by
  have e : (V m c main_v28 : S1x128.Idx → Elt F .f32)
      = shapeCast S1x128 (m ((c : Thread nD τ).loc main_arg4) : S128.Idx → Elt F .f32) shapeCasts_S128_S1x128 := by
    prefix_term
  rw [e]
  exact shapeCast_a_1a_apply _ _ 0 k
theorem V_yl (k : Fin 128) : (V m c main_v29 : S1x128.Idx → Elt F .f32) (ix2 0 k)
    = (m ((c : Thread nD τ).loc main_arg5) : S128.Idx → Elt F .f32) (ix1 k) := by
  have e : (V m c main_v29 : S1x128.Idx → Elt F .f32)
      = shapeCast S1x128 (m ((c : Thread nD τ).loc main_arg5) : S128.Idx → Elt F .f32) shapeCasts_S128_S1x128 := by
    prefix_term
  rw [e]
  exact shapeCast_a_1a_apply _ _ 0 k
theorem V_zl (k : Fin 128) : (V m c main_v30 : S1x128.Idx → Elt F .f32) (ix2 0 k)
    = (m ((c : Thread nD τ).loc main_arg6) : S128.Idx → Elt F .f32) (ix1 k) := by
  have e : (V m c main_v30 : S1x128.Idx → Elt F .f32)
      = shapeCast S1x128 (m ((c : Thread nD τ).loc main_arg6) : S128.Idx → Elt F .f32) shapeCasts_S128_S1x128 := by
    prefix_term
  rw [e]
  exact shapeCast_a_1a_apply _ _ 0 k
theorem V_off (k : Fin 4) : (V m c main_v31 : S1x4.Idx → Elt F .f32) (ix2 0 k)
    = (m ((c : Thread nD τ).loc main_arg7) : S4.Idx → Elt F .f32) (ix1 k) := by
  have e : (V m c main_v31 : S1x4.Idx → Elt F .f32)
      = shapeCast S1x4 (m ((c : Thread nD τ).loc main_arg7) : S4.Idx → Elt F .f32) shapeCasts_S4_S1x4 := by
    prefix_term
  rw [e]
  exact shapeCast_a_1a_apply _ _ 0 k

end Cert.KernelIdeal.Hand

end
-- ==== Proof.KernelValue.lean ====
/-
  The kernel's two results as functions of the argument arrays. Point n of a stream lies in row R = n / 128,
  lane l = n mod 128 of that stream's planes; row R belongs to grid point t = R / 1000, where it is row
  r = R mod 1000 of the block. Entry n of a result is therefore entry (r, l) of the block the body left at
  point t, which is arithmetic on entry (r, l) of that point's input blocks, which are entry n of the argument
  lists; the cell index of point n is in range by the precondition, so its three fields pick the table lanes
  the specification names.
-/
import proofs.«428591_j52295521796844_3_alg».proof.Proof.Blocks
import proofs.«428591_j52295521796844_3_alg».proof.Proof.Tail
import proofs.«428591_j52295521796844_3_alg».proof.Proof.BlockValue
import proofs.«428591_j52295521796844_3_alg».proof.Proof.Arrays
import proofs.«428591_j52295521796844_3_alg».proof.Proof.Spec

noncomputable section

namespace Cert.KernelIdeal.Hand

open Cert.KernelIdeal Cert.KernelIdeal.Gen Cert.Quadric
open Idealize.ShloMosaic Idealize.ShloMosaic.TcCoe Idealize.ShloMosaic.ValueIdx Idealize.SL.Sem
open Idealize.ShloMosaic.Pipeline (Dat)

/-! ## Where point n sits -/

section point
variable (n : Fin 4000000)

/-- The row of the planes that holds point n. -/
def rowOf : Fin 32000 := ⟨n.val / 128, by have := n.isLt; omega⟩
/-- Its lane in that row. -/
def laneOf : Fin 128 := ⟨n.val % 128, Nat.mod_lt _ (by decide)⟩
/-- The grid point whose block holds that row. -/
def ptOf : Fin cfg0.N := ⟨n.val / 128 / 1000, by show _ < grid0.N; rw [N_0]; have := n.isLt; omega⟩
/-- The row's place in that block. -/
def inOf : Fin 1000 := ⟨n.val / 128 % 1000, Nat.mod_lt _ (by decide)⟩

theorem row_eq : (rowOf n).val = (ptOf n).val * 1000 + (inOf n).val := by
  show n.val / 128 = n.val / 128 / 1000 * 1000 + n.val / 128 % 1000
  omega
theorem pos_lt : (rowOf n).val * 128 + (laneOf n).val < 4000000 := by
  show n.val / 128 * 128 + n.val % 128 < 4000000
  have := n.isLt; omega
theorem pos_eq : (⟨(rowOf n).val * 128 + (laneOf n).val, pos_lt n⟩ : Fin 4000000) = n :=
  Fin.ext (by show n.val / 128 * 128 + n.val % 128 = n.val; omega)

end point

variable (m : (ℓ : Loc nD τ sig) → Buf (Elt Ideal) ℓ) (c : Dev nD)

/-! ## The input blocks' entries are the arguments' -/

section inputs
variable (n : Fin 4000000)

theorem in_0 : (iblk m c 0 (ptOf n) : S1000x128.Idx → Elt Ideal .f32) (ix2 (inOf n) (laneOf n))
    = (m ((c : Thread nD τ).loc main_arg0) : S4000000x3.Idx → Elt Ideal .f32) (ix2 n 0) := by
  rw [iblk_0 m c (ptOf n) (inOf n) (laneOf n) (rowOf n) (row_eq n), V_rpx m c (rowOf n) (laneOf n) (pos_lt n), pos_eq]
theorem in_1 : (iblk m c 1 (ptOf n) : S1000x128.Idx → Elt Ideal .f32) (ix2 (inOf n) (laneOf n))
    = (m ((c : Thread nD τ).loc main_arg0) : S4000000x3.Idx → Elt Ideal .f32) (ix2 n 1) := by
  rw [iblk_1 m c (ptOf n) (inOf n) (laneOf n) (rowOf n) (row_eq n), V_rpy m c (rowOf n) (laneOf n) (pos_lt n), pos_eq]
theorem in_2 : (iblk m c 2 (ptOf n) : S1000x128.Idx → Elt Ideal .f32) (ix2 (inOf n) (laneOf n))
    = (m ((c : Thread nD τ).loc main_arg0) : S4000000x3.Idx → Elt Ideal .f32) (ix2 n 2) := by
  rw [iblk_2 m c (ptOf n) (inOf n) (laneOf n) (rowOf n) (row_eq n), V_rpz m c (rowOf n) (laneOf n) (pos_lt n), pos_eq]
theorem in_3 : (iblk m c 3 (ptOf n) : S1000x128.Idx → Elt Ideal .i32) (ix2 (inOf n) (laneOf n))
    = (m ((c : Thread nD τ).loc main_arg1) : S4000000.Idx → Elt Ideal .i32) (ix1 n) := by
  rw [iblk_3 m c (ptOf n) (inOf n) (laneOf n) (rowOf n) (row_eq n), V_ridx m c (rowOf n) (laneOf n) (pos_lt n), pos_eq]
theorem in_4 : (iblk m c 4 (ptOf n) : S1000x128.Idx → Elt Ideal .f32) (ix2 (inOf n) (laneOf n))
    = (m ((c : Thread nD τ).loc main_arg2) : S4000000x3.Idx → Elt Ideal .f32) (ix2 n 0) := by
  rw [iblk_4 m c (ptOf n) (inOf n) (laneOf n) (rowOf n) (row_eq n), V_spx m c (rowOf n) (laneOf n) (pos_lt n), pos_eq]
theorem in_5 : (iblk m c 5 (ptOf n) : S1000x128.Idx → Elt Ideal .f32) (ix2 (inOf n) (laneOf n))
    = (m ((c : Thread nD τ).loc main_arg2) : S4000000x3.Idx → Elt Ideal .f32) (ix2 n 1) := by
  rw [iblk_5 m c (ptOf n) (inOf n) (laneOf n) (rowOf n) (row_eq n), V_spy m c (rowOf n) (laneOf n) (pos_lt n), pos_eq]
theorem in_6 : (iblk m c 6 (ptOf n) : S1000x128.Idx → Elt Ideal .f32) (ix2 (inOf n) (laneOf n))
    = (m ((c : Thread nD τ).loc main_arg2) : S4000000x3.Idx → Elt Ideal .f32) (ix2 n 2) := by
  rw [iblk_6 m c (ptOf n) (inOf n) (laneOf n) (rowOf n) (row_eq n), V_spz m c (rowOf n) (laneOf n) (pos_lt n), pos_eq]
theorem in_7 : (iblk m c 7 (ptOf n) : S1000x128.Idx → Elt Ideal .i32) (ix2 (inOf n) (laneOf n))
    = (m ((c : Thread nD τ).loc main_arg3) : S4000000.Idx → Elt Ideal .i32) (ix1 n) := by
  rw [iblk_7 m c (ptOf n) (inOf n) (laneOf n) (rowOf n) (row_eq n), V_sidx m c (rowOf n) (laneOf n) (pos_lt n), pos_eq]

end inputs

section tables
variable (t : Fin cfg0.N)

theorem tab_8 (k : Fin 128) : (iblk m c 8 t : S1x128.Idx → Elt Ideal .f32) (ix2 0 k)
    = (m ((c : Thread nD τ).loc main_arg4) : S128.Idx → Elt Ideal .f32) (ix1 k) := (iblk_8 m c t k).trans (V_xl m c k)
theorem tab_9 (k : Fin 128) : (iblk m c 9 t : S1x128.Idx → Elt Ideal .f32) (ix2 0 k)
    = (m ((c : Thread nD τ).loc main_arg5) : S128.Idx → Elt Ideal .f32) (ix1 k) := (iblk_9 m c t k).trans (V_yl m c k)
theorem tab_10 (k : Fin 128) : (iblk m c 10 t : S1x128.Idx → Elt Ideal .f32) (ix2 0 k)
    = (m ((c : Thread nD τ).loc main_arg6) : S128.Idx → Elt Ideal .f32) (ix1 k) := (iblk_10 m c t k).trans (V_zl m c k)
theorem tab_11 (k : Fin 4) : (iblk m c 11 t : S1x4.Idx → Elt Ideal .f32) (ix2 0 k)
    = (m ((c : Thread nD τ).loc main_arg7) : S4.Idx → Elt Ideal .f32) (ix1 k) := (iblk_11 m c t k).trans (V_off m c k)

end tables

/-! ## The two results -/

/-- The first result is the quadric's values. -/
theorem first_eq (h3 : InRange (m ((c : Thread nD τ).loc main_arg3))) :
    (Pipeline.afterTail₀ cfgs (dats m) 0 (V0 m) [hostOps1] c main_v34 : S4000000.Idx → Elt Ideal .f32)
    = sdfArr (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  funext j
  obtain ⟨n, rfl⟩ : ∃ n : Fin 4000000, j = ix1 n := ⟨j 0, eq_ix1 j⟩
  have hw : ((iblk m c 7 (ptOf n) : S1000x128.Idx → Elt Ideal .i32) (ix2 (inOf n) (laneOf n)) : BitVec 32).toNat < 2097152 := by
    rw [in_7]; exact h3 (ix1 n)
  rw [first_apply]
  show ((dats m 0 c).arrAt 12 cfg0.N : S32000x128.Idx → Elt Ideal .f32) (ix2 (rowOf n) (laneOf n)) = _
  rw [arr_12 m c (ptOf n) (inOf n) (laneOf n) (rowOf n) (row_eq n), sdfBlk_apply _ _ _ _ _ _ _ _ _ _ hw]
  simp only [in_4, in_5, in_6, in_7, tab_8, tab_9, tab_10, tab_11]
  rfl

/-- The second result is the unit normals. -/
theorem second_eq (h1 : InRange (m ((c : Thread nD τ).loc main_arg1))) :
    (Pipeline.afterTail₀ cfgs (dats m) 0 (V0 m) [hostOps1] c main_v44 : S4000000x3.Idx → Elt Ideal .f32)
    = normalArr (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) := by
  funext j
  obtain ⟨n, a, rfl⟩ : ∃ (n : Fin 4000000) (a : Fin 3), j = ix2 n a := ⟨j 0, j 1, eq_ix2 j⟩
  have hw : ((iblk m c 3 (ptOf n) : S1000x128.Idx → Elt Ideal .i32) (ix2 (inOf n) (laneOf n)) : BitVec 32).toNat < 2097152 := by
    rw [in_3]; exact h1 (ix1 n)
  match a with
  | ⟨0, _⟩ =>
    show (Pipeline.afterTail₀ cfgs (dats m) 0 (V0 m) [hostOps1] c main_v44 : S4000000x3.Idx → Elt Ideal .f32) (ix2 n 0) = _
    rw [second_apply_0]
    show ((dats m 0 c).arrAt 13 cfg0.N : S32000x128.Idx → Elt Ideal .f32) (ix2 (rowOf n) (laneOf n)) = _
    rw [arr_13 m c (ptOf n) (inOf n) (laneOf n) (rowOf n) (row_eq n), nxBlk_apply _ _ _ _ _ _ _ _ _ _ hw]
    simp only [gxE, gyE, gzE, invE, in_0, in_1, in_2, in_3, tab_8, tab_9, tab_10, tab_11]
    rfl
  | ⟨1, _⟩ =>
    show (Pipeline.afterTail₀ cfgs (dats m) 0 (V0 m) [hostOps1] c main_v44 : S4000000x3.Idx → Elt Ideal .f32) (ix2 n 1) = _
    rw [second_apply_1]
    show ((dats m 0 c).arrAt 14 cfg0.N : S32000x128.Idx → Elt Ideal .f32) (ix2 (rowOf n) (laneOf n)) = _
    rw [arr_14 m c (ptOf n) (inOf n) (laneOf n) (rowOf n) (row_eq n), nyBlk_apply _ _ _ _ _ _ _ _ _ _ hw]
    simp only [gxE, gyE, gzE, invE, in_0, in_1, in_2, in_3, tab_8, tab_9, tab_10, tab_11]
    rfl
  | ⟨2, _⟩ =>
    show (Pipeline.afterTail₀ cfgs (dats m) 0 (V0 m) [hostOps1] c main_v44 : S4000000x3.Idx → Elt Ideal .f32) (ix2 n 2) = _
    rw [second_apply_2]
    show ((dats m 0 c).arrAt 15 cfg0.N : S32000x128.Idx → Elt Ideal .f32) (ix2 (rowOf n) (laneOf n)) = _
    rw [arr_15 m c (ptOf n) (inOf n) (laneOf n) (rowOf n) (row_eq n), nzBlk_apply _ _ _ _ _ _ _ _ _ _ hw]
    simp only [gxE, gyE, gzE, invE, in_0, in_1, in_2, in_3, tab_8, tab_9, tab_10, tab_11]
    rfl

/-! ## The run, read -/

/-- After the run an argument is as launched: no window stages it and no host line writes it. -/
theorem args_kept (r : PUnit × MemSt nD τ sig (Elt Ideal))
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (Pipeline.mem_restRefs_of main_arg0 (by decide) (by decide))).trans (W_kept m (dats m) c main_arg0 (Or.inl rfl)),
   ((h c).2 main_arg1 (Pipeline.mem_restRefs_of main_arg1 (by decide) (by decide))).trans (W_kept m (dats m) c main_arg1 (Or.inr (Or.inl rfl))),
   ((h c).2 main_arg2 (Pipeline.mem_restRefs_of main_arg2 (by decide) (by decide))).trans (W_kept m (dats m) c main_arg2 (Or.inr (Or.inr (Or.inl rfl)))),
   ((h c).2 main_arg3 (Pipeline.mem_restRefs_of main_arg3 (by decide) (by decide))).trans (W_kept m (dats m) c main_arg3 (Or.inr (Or.inr (Or.inr (Or.inl rfl))))),
   ((h c).2 main_arg4 (Pipeline.mem_restRefs_of main_arg4 (by decide) (by decide))).trans (W_kept m (dats m) c main_arg4 (Or.inr (Or.inr (Or.inr (Or.inr (Or.inl rfl)))))),
   ((h c).2 main_arg5 (Pipeline.mem_restRefs_of main_arg5 (by decide) (by decide))).trans (W_kept m (dats m) c main_arg5 (Or.inr (Or.inr (Or.inr (Or.inr (Or.inr (Or.inl rfl))))))),
   ((h c).2 main_arg6 (Pipeline.mem_restRefs_of main_arg6 (by decide) (by decide))).trans (W_kept m (dats m) c main_arg6 (Or.inr (Or.inr (Or.inr (Or.inr (Or.inr (Or.inr (Or.inl rfl)))))))),
   ((h c).2 main_arg7 (Pipeline.mem_restRefs_of main_arg7 (by decide) (by decide))).trans (W_kept m (dats m) c main_arg7 (Or.inr (Or.inr (Or.inr (Or.inr (Or.inr (Or.inr (Or.inr rfl))))))))⟩

/-- The kernel's run with its two results named: where both lists of cell indices are in range, every execution ends
    with the first result at the quadric's values, the second at the unit normals, and the arguments as launched. -/
theorem run_value (ρ : Dev nD → PrngReg)
    (hin : ∀ c : Dev nD, InRange (m ((c : Thread nD τ).loc main_arg1)) ∧ InRange (m ((c : Thread nD τ).loc main_arg3))) :
    θ_run defs (onTc (τ := τ) (main (F := Ideal))) ⟨m, fun _ => 0, ρ⟩ (fun r => ∀ c : Dev nD,
      r.2.mem ((c.tc : Thread nD τ).loc main_v34) = sdfArr (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c.tc : Thread nD τ).loc main_v44) = normalArr (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v34 (Pipeline.mem_restRefs_of main_v34 (by decide) (by decide))).trans (first_eq m c (hin c).2),
     ((h c).2 main_v44 (Pipeline.mem_restRefs_of main_v44 (by decide) (by decide))).trans (second_eq m c (hin c).1),
     args_kept m c r h⟩) (run_main m ρ)

end Cert.KernelIdeal.Hand

end
-- ==== Proof.RefValue.lean ====
/-
  The reference's two results as functions of the argument arrays: it builds the table of all 128^3 cells'
  seven coefficients, takes each point's row, and evaluates the quadric and its normalised gradient; row w of
  the table is (xl (w / 128^2), yl ((w / 128) mod 128), zl (w mod 128), off 0, off 1, off 2, off 3).

  In order: the gather of whole rows read at an entry (the start index signed and clamped into the table, the
  column kept); the table's row through the join of the four pieces and the reshape; under the range condition
  the wrap of a negative index and the clamp are the identity, so point n's row is the row of its cell; the
  three slices of that row entry by entry; then the two results, the sums regrouped in the extended reals.
-/
import proofs.«428591_j52295521796844_3_alg».proof.Proof.Gen.ReferenceIdeal.Run
import proofs.«428591_j52295521796844_3_alg».proof.Proof.Gen.ReferenceIdeal.Read
import proofs.«428591_j52295521796844_3_alg».proof.Proof.Spec
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx

/-! ## The gather of rows at an entry -/

local notation "gd" => gather_S2097152x7_S4000000x1_S4000000x7_1_0_n_n_0_1_17

/-- The gather of rows read at (n, k): the operand's entry (start index of n read signed and clamped into the table, k). -/
theorem gather_row_apply {α : Type} (x : S2097152x7.Idx → α) (idx : IVec S4000000x1 32) (n : Fin 4000000) (k : Fin 7) :
    Host.gather gd x idx (ix2 n k)
      = x (ix2 (⟨min (idx (ix2 n (0 : Fin 1))).toInt.toNat (2097152 - 1), by omega⟩ : Fin 2097152) k) := by
  unfold Host.gather
  congr 1
  funext a
  refine Fin.ext ?_
  match a with
  | ⟨0, h0⟩ =>
    show GatherDims.start gd (ix2 n k) idx ⟨0, h0⟩ + GatherDims.batchCoord gd (ix2 n k) ⟨0, h0⟩ + GatherDims.offCoord gd (ix2 n k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S2097152x7.rank) ∈ GatherDims.startIndexMap gd from List.mem_singleton.mpr rfl)]
    have hsi : GatherDims.siIdx gd (ix2 n k) ⟨List.idxOf (⟨0, h0⟩ : Fin S2097152x7.rank) (GatherDims.startIndexMap gd),
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, h1⟩ =>
    show GatherDims.start gd (ix2 n k) idx ⟨1, h1⟩ + GatherDims.batchCoord gd (ix2 n k) ⟨1, h1⟩ + GatherDims.offCoord gd (ix2 n k) ⟨1, h1⟩ = k.val
    rw [GatherDims.batchCoord_eq_zero _ _ _ List.not_mem_nil]
    unfold GatherDims.start
    rw [dif_neg (show ¬ (⟨1, h1⟩ : Fin S2097152x7.rank) ∈ GatherDims.startIndexMap gd from fun h => absurd (congrArg Fin.val (List.mem_singleton.mp h)) Nat.one_ne_zero)]
    simp only [Nat.add_zero, Nat.zero_add]
    unfold GatherDims.offCoord
    rw [dif_pos (show (⟨1, h1⟩ : Fin S2097152x7.rank) ∈ GatherDims.sKept gd from (GatherDims.mem_sKept _ _).mpr
      ⟨fun h => absurd (congrArg Fin.val (List.mem_singleton.mp h)) Nat.one_ne_zero, List.not_mem_nil⟩)]
    rfl

/-! ## The table's row -/

/-- Row `w` of the table, component 0: the first per-axis table at the cell's first coordinate. -/
theorem table_x (x4 x5 x6 : (⟨S128, .f32⟩ : BufTy).Contents (Elt Ideal)) (x7 : (⟨S4, .f32⟩ : BufTy).Contents (Elt Ideal))
    (w : Fin 2097152) :
    val_main_v9 (F := Ideal) x4 x5 x6 x7 (ix2 w (0 : Fin 7)) = x4 (ix1 (⟨w.val / 16384 % 128, Nat.mod_lt _ (by decide)⟩ : Fin 128)) := by
  have hw := w.isLt
  rw [val_main_v9_apply]
  unfold val_main_v8
  refine Eq.trans (concatenate_apply_piece (t := S128x128x128x7) (3 : Fin S128x128x128x7.rank)
    [⟨S128x128x128x1, val_main_v1 (F := Ideal) x4⟩, ⟨S128x128x128x1, val_main_v3 (F := Ideal) x5⟩,
      ⟨S128x128x128x1, val_main_v5 (F := Ideal) x6⟩, ⟨S128x128x128x4, val_main_v7 (F := Ideal) x7⟩]
    concatenates_S128x128x128x1_S128x128x128x1_S128x128x128x1_S128x128x128x4_S128x128x128x7_d3
    (idx_main_v9 (ix2 w (0 : Fin 7))) 0 (show 0 < 4 from by omega) S128x128x128x1 (val_main_v1 (F := Ideal) x4) rfl rfl 0 rfl
    (ix4 (⟨w.val / 16384 % 128, Nat.mod_lt _ (by decide)⟩ : Fin 128) (⟨w.val / 128 % 128, Nat.mod_lt _ (by decide)⟩ : Fin 128)
      (⟨w.val % 128, Nat.mod_lt _ (by decide)⟩ : Fin 128) (0 : Fin 1)) ?_ ?_) ?_
  · intro b hb
    match b with
    | ⟨0, _⟩ => show w.val / 16384 % 128 = (w.val * 7 + 0) / 114688; omega
    | ⟨1, _⟩ => show w.val / 128 % 128 = (w.val * 7 + 0) / 896 % 128; omega
    | ⟨2, _⟩ => show w.val % 128 = (w.val * 7 + 0) / 7 % 128; omega
    | ⟨3, _⟩ => exact absurd rfl hb
  · show 0 + 0 = (w.val * 7 + 0) % 7; omega
  · rw [val_main_v1_apply, val_main_v0_apply]
    exact congrArg x4 (funext fun a => Fin.ext (by match a with | ⟨0, _⟩ => rfl))

/-- Row `w` of the table, component 1: the second per-axis table at the cell's second coordinate. -/
theorem table_y (x4 x5 x6 : (⟨S128, .f32⟩ : BufTy).Contents (Elt Ideal)) (x7 : (⟨S4, .f32⟩ : BufTy).Contents (Elt Ideal))
    (w : Fin 2097152) :
    val_main_v9 (F := Ideal) x4 x5 x6 x7 (ix2 w (1 : Fin 7)) = x5 (ix1 (⟨w.val / 128 % 128, Nat.mod_lt _ (by decide)⟩ : Fin 128)) := by
  have hw := w.isLt
  rw [val_main_v9_apply]
  unfold val_main_v8
  refine Eq.trans (concatenate_apply_piece (t := S128x128x128x7) (3 : Fin S128x128x128x7.rank)
    [⟨S128x128x128x1, val_main_v1 (F := Ideal) x4⟩, ⟨S128x128x128x1, val_main_v3 (F := Ideal) x5⟩,
      ⟨S128x128x128x1, val_main_v5 (F := Ideal) x6⟩, ⟨S128x128x128x4, val_main_v7 (F := Ideal) x7⟩]
    concatenates_S128x128x128x1_S128x128x128x1_S128x128x128x1_S128x128x128x4_S128x128x128x7_d3
    (idx_main_v9 (ix2 w (1 : Fin 7))) 1 (show 1 < 4 from by omega) S128x128x128x1 (val_main_v3 (F := Ideal) x5) rfl rfl 1 rfl
    (ix4 (⟨w.val / 16384 % 128, Nat.mod_lt _ (by decide)⟩ : Fin 128) (⟨w.val / 128 % 128, Nat.mod_lt _ (by decide)⟩ : Fin 128)
      (⟨w.val % 128, Nat.mod_lt _ (by decide)⟩ : Fin 128) (0 : Fin 1)) ?_ ?_) ?_
  · intro b hb
    match b with
    | ⟨0, _⟩ => show w.val / 16384 % 128 = (w.val * 7 + 1) / 114688; omega
    | ⟨1, _⟩ => show w.val / 128 % 128 = (w.val * 7 + 1) / 896 % 128; omega
    | ⟨2, _⟩ => show w.val % 128 = (w.val * 7 + 1) / 7 % 128; omega
    | ⟨3, _⟩ => exact absurd rfl hb
  · show 1 + 0 = (w.val * 7 + 1) % 7; omega
  · rw [val_main_v3_apply, val_main_v2_apply]
    exact congrArg x5 (funext fun a => Fin.ext (by match a with | ⟨0, _⟩ => rfl))

/-- Row `w` of the table, component 2: the third per-axis table at the cell's third coordinate. -/
theorem table_z (x4 x5 x6 : (⟨S128, .f32⟩ : BufTy).Contents (Elt Ideal)) (x7 : (⟨S4, .f32⟩ : BufTy).Contents (Elt Ideal))
    (w : Fin 2097152) :
    val_main_v9 (F := Ideal) x4 x5 x6 x7 (ix2 w (2 : Fin 7)) = x6 (ix1 (⟨w.val % 128, Nat.mod_lt _ (by decide)⟩ : Fin 128)) := by
  have hw := w.isLt
  rw [val_main_v9_apply]
  unfold val_main_v8
  refine Eq.trans (concatenate_apply_piece (t := S128x128x128x7) (3 : Fin S128x128x128x7.rank)
    [⟨S128x128x128x1, val_main_v1 (F := Ideal) x4⟩, ⟨S128x128x128x1, val_main_v3 (F := Ideal) x5⟩,
      ⟨S128x128x128x1, val_main_v5 (F := Ideal) x6⟩, ⟨S128x128x128x4, val_main_v7 (F := Ideal) x7⟩]
    concatenates_S128x128x128x1_S128x128x128x1_S128x128x128x1_S128x128x128x4_S128x128x128x7_d3
    (idx_main_v9 (ix2 w (2 : Fin 7))) 2 (show 2 < 4 from by omega) S128x128x128x1 (val_main_v5 (F := Ideal) x6) rfl rfl 2 rfl
    (ix4 (⟨w.val / 16384 % 128, Nat.mod_lt _ (by decide)⟩ : Fin 128) (⟨w.val / 128 % 128, Nat.mod_lt _ (by decide)⟩ : Fin 128)
      (⟨w.val % 128, Nat.mod_lt _ (by decide)⟩ : Fin 128) (0 : Fin 1)) ?_ ?_) ?_
  · intro b hb
    match b with
    | ⟨0, _⟩ => show w.val / 16384 % 128 = (w.val * 7 + 2) / 114688; omega
    | ⟨1, _⟩ => show w.val / 128 % 128 = (w.val * 7 + 2) / 896 % 128; omega
    | ⟨2, _⟩ => show w.val % 128 = (w.val * 7 + 2) / 7 % 128; omega
    | ⟨3, _⟩ => exact absurd rfl hb
  · show 2 + 0 = (w.val * 7 + 2) % 7; omega
  · rw [val_main_v5_apply, val_main_v4_apply]
    exact congrArg x6 (funext fun a => Fin.ext (by match a with | ⟨0, _⟩ => rfl))

/-- Row `w` of the table, components 3 to 6: the shared linear part and constant, whatever the cell. -/
theorem table_off (x4 x5 x6 : (⟨S128, .f32⟩ : BufTy).Contents (Elt Ideal)) (x7 : (⟨S4, .f32⟩ : BufTy).Contents (Elt Ideal))
    (w : Fin 2097152) (c : Fin 4) :
    val_main_v9 (F := Ideal) x4 x5 x6 x7 (ix2 w (⟨3 + c.val, by omega⟩ : Fin 7)) = x7 (ix1 c) := by
  have hw := w.isLt
  have hc := c.isLt
  rw [val_main_v9_apply]
  unfold val_main_v8
  refine Eq.trans (concatenate_apply_piece (t := S128x128x128x7) (3 : Fin S128x128x128x7.rank)
    [⟨S128x128x128x1, val_main_v1 (F := Ideal) x4⟩, ⟨S128x128x128x1, val_main_v3 (F := Ideal) x5⟩,
      ⟨S128x128x128x1, val_main_v5 (F := Ideal) x6⟩, ⟨S128x128x128x4, val_main_v7 (F := Ideal) x7⟩]
    concatenates_S128x128x128x1_S128x128x128x1_S128x128x128x1_S128x128x128x4_S128x128x128x7_d3
    (idx_main_v9 (ix2 w (⟨3 + c.val, by omega⟩ : Fin 7))) 3 (show 3 < 4 from by omega) S128x128x128x4 (val_main_v7 (F := Ideal) x7) rfl rfl 3 rfl
    (ix4 (⟨w.val / 16384 % 128, Nat.mod_lt _ (by decide)⟩ : Fin 128) (⟨w.val / 128 % 128, Nat.mod_lt _ (by decide)⟩ : Fin 128)
      (⟨w.val % 128, Nat.mod_lt _ (by decide)⟩ : Fin 128) c) ?_ ?_) ?_
  · intro b hb
    match b with
    | ⟨0, _⟩ => show w.val / 16384 % 128 = (w.val * 7 + (3 + c.val)) / 114688; omega
    | ⟨1, _⟩ => show w.val / 128 % 128 = (w.val * 7 + (3 + c.val)) / 896 % 128; omega
    | ⟨2, _⟩ => show w.val % 128 = (w.val * 7 + (3 + c.val)) / 7 % 128; omega
    | ⟨3, _⟩ => exact absurd rfl hb
  · show 3 + c.val = (w.val * 7 + (3 + c.val)) % 7; omega
  · rw [val_main_v7_apply, val_main_v6_apply]
    exact congrArg x7 (funext fun a => Fin.ext (by match a with | ⟨0, _⟩ => rfl))

/-! ## A cell index in range is read as it stands -/

open Idealize.ShloMosaic.StableHlo.Predicate in
/-- Under the range condition the wrapped start index of point n is the cell index itself. -/
theorem start_eq (x3 : (⟨S4000000, .i32⟩ : BufTy).Contents (Elt Ideal)) (h : Cert.Quadric.InRange x3) (n : Fin 4000000) :
    val_main_v15 (F := Ideal) x3 (ix2 n (0 : Fin 1)) = x3 (ix1 n) := by
  have hn : (x3 (ix1 n)).toNat < 2097152 := h (ix1 n)
  have e : idx_main_v15 (ix2 n (0 : Fin 1)) = ix1 n := funext fun a => Fin.ext (by match a with | ⟨0, _⟩ => rfl)
  rw [val_main_v15_apply, e, val_main_v14_apply, val_main_v11_apply, val_main_v10_apply, val_main_c_apply]
  have hc : IntOp.cmpi .slt (x3 (ix1 n)) 0#32 = 0#1 :=
    eq_zero_of_ne_one fun h1 => absurd ((slt_iff_toNat (by omega) (by decide)).mp h1) (Nat.not_lt_zero _)
  rw [hc, select_zero]

open Idealize.ShloMosaic.StableHlo.Predicate in
/-- A cell index in range reads the same signed, and the clamp into the table leaves it. -/
theorem clamp_eq (a : BitVec 32) (ha : a.toNat < 2097152) : min a.toInt.toNat (2097152 - 1) = a.toNat := by
  rw [toInt_eq_toNat_of_lt (by omega), Int.toNat_natCast]
  omega

/-! ## Point `n`'s row, and its slices -/

/-- Under the range condition, row `n` of the gathered rows is the table's row at the cell index of point `n`. -/
theorem row_eq (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) (k : Fin 7) :
    val_main_v16 (F := Ideal) x3 x4 x5 x6 x7 (ix2 n k)
      = val_main_v9 (F := Ideal) x4 x5 x6 x7 (ix2 (⟨(x3 (ix1 n)).toNat, h (ix1 n)⟩ : Fin 2097152) k) := by
  unfold val_main_v16
  rw [gather_row_apply]
  have e : (⟨min (val_main_v15 (F := Ideal) x3 (ix2 n (0 : Fin 1))).toInt.toNat (2097152 - 1), by omega⟩ : Fin 2097152)
      = ⟨(x3 (ix1 n)).toNat, h (ix1 n)⟩ := Fin.ext (by
    show min (val_main_v15 (F := Ideal) x3 (ix2 n (0 : Fin 1))).toInt.toNat (2097152 - 1) = (x3 (ix1 n)).toNat
    rw [start_eq x3 h n]; exact clamp_eq _ (h (ix1 n)))
  rw [e]

/-- The gathered row of point `n`, component 0. -/
theorem row_x (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) :
    val_main_v16 (F := Ideal) x3 x4 x5 x6 x7 (ix2 n (0 : Fin 7)) = x4 (ix1 (Cert.Quadric.cx (x3 (ix1 n)))) := by
  rw [row_eq x3 x4 x5 x6 x7 h, table_x]; rfl

/-- The gathered row of point `n`, component 1. -/
theorem row_y (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) :
    val_main_v16 (F := Ideal) x3 x4 x5 x6 x7 (ix2 n (1 : Fin 7)) = x5 (ix1 (Cert.Quadric.cy (x3 (ix1 n)))) := by
  rw [row_eq x3 x4 x5 x6 x7 h, table_y]; rfl

/-- The gathered row of point `n`, component 2. -/
theorem row_z (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) :
    val_main_v16 (F := Ideal) x3 x4 x5 x6 x7 (ix2 n (2 : Fin 7)) = x6 (ix1 (Cert.Quadric.cz (x3 (ix1 n)))) := by
  rw [row_eq x3 x4 x5 x6 x7 h, table_z]; rfl

/-- The gathered row of point `n`, components 3 to 6. -/
theorem row_off (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) (c : Fin 4) :
    val_main_v16 (F := Ideal) x3 x4 x5 x6 x7 (ix2 n (⟨3 + c.val, by omega⟩ : Fin 7)) = x7 (ix1 c) := by
  rw [row_eq x3 x4 x5 x6 x7 h, table_off]

/-! The three slices of the gathered rows, entry by entry. -/

theorem quad_x (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) :
    val_main_v17 (F := Ideal) x3 x4 x5 x6 x7 (ix2 n (0 : Fin 3)) = x4 (ix1 (Cert.Quadric.cx (x3 (ix1 n)))) := by
  rw [val_main_v17_apply]
  exact (congrArg (val_main_v16 (F := Ideal) x3 x4 x5 x6 x7)
    (funext fun a => Fin.ext (by match a with | ⟨0, _⟩ => rfl | ⟨1, _⟩ => rfl))).trans (row_x x3 x4 x5 x6 x7 h n)

theorem quad_y (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) :
    val_main_v17 (F := Ideal) x3 x4 x5 x6 x7 (ix2 n (1 : Fin 3)) = x5 (ix1 (Cert.Quadric.cy (x3 (ix1 n)))) := by
  rw [val_main_v17_apply]
  exact (congrArg (val_main_v16 (F := Ideal) x3 x4 x5 x6 x7)
    (funext fun a => Fin.ext (by match a with | ⟨0, _⟩ => rfl | ⟨1, _⟩ => rfl))).trans (row_y x3 x4 x5 x6 x7 h n)

theorem quad_z (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) :
    val_main_v17 (F := Ideal) x3 x4 x5 x6 x7 (ix2 n (2 : Fin 3)) = x6 (ix1 (Cert.Quadric.cz (x3 (ix1 n)))) := by
  rw [val_main_v17_apply]
  exact (congrArg (val_main_v16 (F := Ideal) x3 x4 x5 x6 x7)
    (funext fun a => Fin.ext (by match a with | ⟨0, _⟩ => rfl | ⟨1, _⟩ => rfl))).trans (row_z x3 x4 x5 x6 x7 h n)

theorem lin_at (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) (c : Fin 4) (k : Fin 3) (hk : k.val = c.val) :
    val_main_v18 (F := Ideal) x3 x4 x5 x6 x7 (ix2 n k) = x7 (ix1 c) := by
  rw [val_main_v18_apply]
  exact (congrArg (val_main_v16 (F := Ideal) x3 x4 x5 x6 x7)
    (funext fun a => Fin.ext (by match a with | ⟨0, _⟩ => rfl | ⟨1, _⟩ => exact congrArg (3 + ·) hk))).trans (row_off x3 x4 x5 x6 x7 h n c)

theorem const_at (x3 : (⟨S4000000, .i32⟩ : BufTy).Contents (Elt Ideal)) (x4 x5 x6 : (⟨S128, .f32⟩ : BufTy).Contents (Elt Ideal)) (x7 : (⟨S4, .f32⟩ : BufTy).Contents (Elt Ideal))
    (h : Cert.Quadric.InRange x3) (n : Fin 4000000) :
    val_main_v20 (F := Ideal) x3 x4 x5 x6 x7 (ix1 n) = x7 (ix1 (3 : Fin 4)) := by
  rw [val_main_v20_apply, val_main_v19_apply]
  exact (congrArg (val_main_v16 (F := Ideal) x3 x4 x5 x6 x7)
    (funext fun a => Fin.ext (by match a with | ⟨0, _⟩ => exact Nat.div_one _ | ⟨1, _⟩ => rfl))).trans (row_off x3 x4 x5 x6 x7 h n 3)

/-! ## The first result -/

/-- The first result is the quadric's values. -/
theorem sdf_eq (x2 : (⟨S4000000x3, .f32⟩ : BufTy).Contents (Elt Ideal)) (x3 : (⟨S4000000, .i32⟩ : BufTy).Contents (Elt Ideal))
    (x4 x5 x6 : (⟨S128, .f32⟩ : BufTy).Contents (Elt Ideal)) (x7 : (⟨S4, .f32⟩ : BufTy).Contents (Elt Ideal))
    (h : Cert.Quadric.InRange x3) :
    val_main_v26 (F := Ideal) x2 x3 x4 x5 x6 x7 = Cert.Quadric.sdfArr x2 x3 x4 x5 x6 x7 := by
  funext i
  obtain ⟨n, rfl⟩ : ∃ n : Fin 4000000, i = ix1 n := ⟨i 0, eq_ix1 i⟩
  have e : ∀ k : Fin 3, idx_main_v25 (ix1 n) k = ix2 n k := fun k =>
    funext fun a => Fin.ext (by match a with | ⟨0, _⟩ => rfl | ⟨1, _⟩ => rfl)
  rw [val_main_v26_apply, val_main_v25_apply, Fin.sum_univ_three, e 0, e 1, e 2, const_at x3 x4 x5 x6 x7 h n]
  simp only [val_main_v24_apply, val_main_v22_apply, val_main_v21_apply, val_main_v23_apply, val_main_cst_apply,
    quad_x x3 x4 x5 x6 x7 h n, quad_y x3 x4 x5 x6 x7 h n, quad_z x3 x4 x5 x6 x7 h n,
    lin_at x3 x4 x5 x6 x7 h n (0 : Fin 4) (0 : Fin 3) rfl, lin_at x3 x4 x5 x6 x7 h n (1 : Fin 4) (1 : Fin 3) rfl,
    lin_at x3 x4 x5 x6 x7 h n (2 : Fin 4) (2 : Fin 3) rfl,
    Ideal.addf_def, Ideal.mulf_def, Ideal.ofBits_def, Ideal.ofBits_zero_f32, zero_add]
  show _ = Cert.Quadric.sdfAt x2 x3 x4 x5 x6 x7 n
  unfold Cert.Quadric.sdfAt
  ac_rfl

/-! ## The second result -/

/-! The second gather reads the same table at the other list of cell indices: its slices are the first's. -/

theorem slice_q_eq (x1 : (⟨S4000000, .i32⟩ : BufTy).Contents (Elt Ideal)) (x4 x5 x6 : (⟨S128, .f32⟩ : BufTy).Contents (Elt Ideal)) (x7 : (⟨S4, .f32⟩ : BufTy).Contents (Elt Ideal)) :
    val_main_v34 (F := Ideal) x1 x4 x5 x6 x7 = val_main_v17 (F := Ideal) x1 x4 x5 x6 x7 := rfl

theorem slice_l_eq (x1 : (⟨S4000000, .i32⟩ : BufTy).Contents (Elt Ideal)) (x4 x5 x6 : (⟨S128, .f32⟩ : BufTy).Contents (Elt Ideal)) (x7 : (⟨S4, .f32⟩ : BufTy).Contents (Elt Ideal)) :
    val_main_v35 (F := Ideal) x1 x4 x5 x6 x7 = val_main_v18 (F := Ideal) x1 x4 x5 x6 x7 := rfl

/-- The splat of the literal 2. -/
theorem two_at (i : S4000000x3.Idx) : val_main_v36 (F := Ideal) i = Cert.Quadric.two := by
  rw [val_main_v36_apply, val_main_cst_3_apply]; rfl

/-- The gradient's first component at point `n`. -/
theorem grad_x (x0 : (⟨S4000000x3, .f32⟩ : BufTy).Contents (Elt Ideal)) (x1 : (⟨S4000000, .i32⟩ : BufTy).Contents (Elt Ideal))
    (x4 x5 x6 : (⟨S128, .f32⟩ : BufTy).Contents (Elt Ideal)) (x7 : (⟨S4, .f32⟩ : BufTy).Contents (Elt Ideal))
    (h : Cert.Quadric.InRange x1) (n : Fin 4000000) :
    val_main_v39 (F := Ideal) x0 x1 x4 x5 x6 x7 (ix2 n (0 : Fin 3)) = Cert.Quadric.g0 x0 x1 x4 x7 n := by
  rw [val_main_v39_apply, val_main_v38_apply, val_main_v37_apply, two_at, slice_q_eq, slice_l_eq,
    quad_x x1 x4 x5 x6 x7 h n, lin_at x1 x4 x5 x6 x7 h n (0 : Fin 4) (0 : Fin 3) rfl]
  rfl

/-- The gradient's second component at point `n`. -/
theorem grad_y (x0 : (⟨S4000000x3, .f32⟩ : BufTy).Contents (Elt Ideal)) (x1 : (⟨S4000000, .i32⟩ : BufTy).Contents (Elt Ideal))
    (x4 x5 x6 : (⟨S128, .f32⟩ : BufTy).Contents (Elt Ideal)) (x7 : (⟨S4, .f32⟩ : BufTy).Contents (Elt Ideal))
    (h : Cert.Quadric.InRange x1) (n : Fin 4000000) :
    val_main_v39 (F := Ideal) x0 x1 x4 x5 x6 x7 (ix2 n (1 : Fin 3)) = Cert.Quadric.g1 x0 x1 x5 x7 n := by
  rw [val_main_v39_apply, val_main_v38_apply, val_main_v37_apply, two_at, slice_q_eq, slice_l_eq,
    quad_y x1 x4 x5 x6 x7 h n, lin_at x1 x4 x5 x6 x7 h n (1 : Fin 4) (1 : Fin 3) rfl]
  rfl

/-- The gradient's third component at point `n`. -/
theorem grad_z (x0 : (⟨S4000000x3, .f32⟩ : BufTy).Contents (Elt Ideal)) (x1 : (⟨S4000000, .i32⟩ : BufTy).Contents (Elt Ideal))
    (x4 x5 x6 : (⟨S128, .f32⟩ : BufTy).Contents (Elt Ideal)) (x7 : (⟨S4, .f32⟩ : BufTy).Contents (Elt Ideal))
    (h : Cert.Quadric.InRange x1) (n : Fin 4000000) :
    val_main_v39 (F := Ideal) x0 x1 x4 x5 x6 x7 (ix2 n (2 : Fin 3)) = Cert.Quadric.g2 x0 x1 x6 x7 n := by
  rw [val_main_v39_apply, val_main_v38_apply, val_main_v37_apply, two_at, slice_q_eq, slice_l_eq,
    quad_z x1 x4 x5 x6 x7 h n, lin_at x1 x4 x5 x6 x7 h n (2 : Fin 4) (2 : Fin 3) rfl]
  rfl

/-- The squared length of the gradient at point `n`: the sum over the three components, from zero. -/
theorem sq_at (x0 : (⟨S4000000x3, .f32⟩ : BufTy).Contents (Elt Ideal)) (x1 : (⟨S4000000, .i32⟩ : BufTy).Contents (Elt Ideal))
    (x4 x5 x6 : (⟨S128, .f32⟩ : BufTy).Contents (Elt Ideal)) (x7 : (⟨S4, .f32⟩ : BufTy).Contents (Elt Ideal))
    (h : Cert.Quadric.InRange x1) (n : Fin 4000000) :
    val_main_v41 (F := Ideal) x0 x1 x4 x5 x6 x7 (ix1 n)
      = Cert.Quadric.g0 x0 x1 x4 x7 n * Cert.Quadric.g0 x0 x1 x4 x7 n + Cert.Quadric.g1 x0 x1 x5 x7 n * Cert.Quadric.g1 x0 x1 x5 x7 n
        + Cert.Quadric.g2 x0 x1 x6 x7 n * Cert.Quadric.g2 x0 x1 x6 x7 n := by
  have e : ∀ k : Fin 3, idx_main_v41 (ix1 n) k = ix2 n k := fun k =>
    funext fun a => Fin.ext (by match a with | ⟨0, _⟩ => rfl | ⟨1, _⟩ => rfl)
  rw [val_main_v41_apply, Fin.sum_univ_three, e 0, e 1, e 2, val_main_cst_4_apply]
  simp only [val_main_v40_apply, grad_x x0 x1 x4 x5 x6 x7 h n, grad_y x0 x1 x4 x5 x6 x7 h n, grad_z x0 x1 x4 x5 x6 x7 h n,
    Ideal.mulf_def, Ideal.ofBits_def, Ideal.ofBits_zero_f32, zero_add]

/-- The regularised reciprocal length, the same for the three components of point `n`. -/
theorem inv_at (x0 : (⟨S4000000x3, .f32⟩ : BufTy).Contents (Elt Ideal)) (x1 : (⟨S4000000, .i32⟩ : BufTy).Contents (Elt Ideal))
    (x4 x5 x6 : (⟨S128, .f32⟩ : BufTy).Contents (Elt Ideal)) (x7 : (⟨S4, .f32⟩ : BufTy).Contents (Elt Ideal))
    (h : Cert.Quadric.InRange x1) (n : Fin 4000000) (k : Fin 3) :
    val_main_v46 (F := Ideal) x0 x1 x4 x5 x6 x7 (ix2 n k) = Cert.Quadric.invLen x0 x1 x4 x5 x6 x7 n := by
  have e : idx_main_v42 (idx_main_v46 (ix2 n k)) = ix1 n := funext fun a => Fin.ext (by match a with | ⟨0, _⟩ => rfl)
  rw [val_main_v46_apply, val_main_v45_apply, val_main_v44_apply, val_main_v42_apply, val_main_v43_apply,
    val_main_cst_5_apply, e, sq_at x0 x1 x4 x5 x6 x7 h n]
  rfl

/-- The second result is the unit normals. -/
theorem normal_eq (x0 : (⟨S4000000x3, .f32⟩ : BufTy).Contents (Elt Ideal)) (x1 : (⟨S4000000, .i32⟩ : BufTy).Contents (Elt Ideal))
    (x4 x5 x6 : (⟨S128, .f32⟩ : BufTy).Contents (Elt Ideal)) (x7 : (⟨S4, .f32⟩ : BufTy).Contents (Elt Ideal))
    (h : Cert.Quadric.InRange x1) :
    val_main_v47 (F := Ideal) x0 x1 x4 x5 x6 x7 = Cert.Quadric.normalArr x0 x1 x4 x5 x6 x7 := by
  funext i
  obtain ⟨n, k, rfl⟩ : ∃ (n : Fin 4000000) (k : Fin 3), i = ix2 n k := ⟨i 0, i 1, eq_ix2 i⟩
  rw [val_main_v47_apply, inv_at x0 x1 x4 x5 x6 x7 h n k]
  match k with
  | ⟨0, _⟩ => exact congrArg (· * Cert.Quadric.invLen x0 x1 x4 x5 x6 x7 n) (grad_x x0 x1 x4 x5 x6 x7 h n)
  | ⟨1, _⟩ => exact congrArg (· * Cert.Quadric.invLen x0 x1 x4 x5 x6 x7 n) (grad_y x0 x1 x4 x5 x6 x7 h n)
  | ⟨2, _⟩ => exact congrArg (· * Cert.Quadric.invLen x0 x1 x4 x5 x6 x7 n) (grad_z x0 x1 x4 x5 x6 x7 h n)

end Cert.ReferenceIdeal.RefValue

end
-- ==== Proof.PreIdx.lean ====
/-
  What the precondition says of the two lists of cell indices: every entry names a cell of the 128 x 128 x 128
  grid, that is, lies in [0, 128^3).
-/
import proofs.«428591_j52295521796844_3_alg».proof.Pre_finite_inputs
import proofs.«428591_j52295521796844_3_alg».proof.Proof.Spec
import Idealize.ShloMosaic.Lib.ReduceAll
import Idealize.ShloMosaic.Lib.StableHlo.Predicate

noncomputable section

namespace Cert.Quadric

open Idealize.ShloMosaic

/-- A 32-bit word that is at least 0 and below 128^3 = 2097152 as a SIGNED number is below 2097152 as an unsigned
    one: signed non-negativity clears the sign bit, so the signed and the unsigned readings agree. -/
theorem toNat_lt_of_signed_range (w : BitVec 32) (h0 : IntOp.cmpi .sge w 0#32 = 1#1)
    (h1 : IntOp.cmpi .slt w 2097152#32 = 1#1) : w.toNat < 2097152 := by
  rw [IntOp.cmpi_sge] at h0
  rw [IntOp.cmpi_slt] at h1
  have e0 : (0#32 : BitVec 32).toInt = 0 := by decide
  have e1 : (2097152#32 : BitVec 32).toInt = 2097152 := by decide
  rw [e0] at h0
  rw [e1] at h1
  have hw := w.isLt
  rw [BitVec.toInt_eq_toNat_cond] at h0 h1
  split at h0 <;> omega

section
variable [Cert.Pre_finite_inputs.Facts]
open Cert.Pre_finite_inputs Cert.Pre_finite_inputs.Facts

/-- One index list's conjunct of the precondition, decoded: the conjunct is the reduction by `and`, over all entries,
    of `(idx >= 0) and (idx < 2097152)`, both compares signed against a scalar constant broadcast along the list. If
    the reduction is 1 then each entry passed both compares, and so lies in [0, 128^3). -/
theorem inRange_of_all (a : IVec S4000000 32) (init : IVec S_ 1)
    (e : Host.reduce IntOp.andi
        (andi (cmpi .sge a (broadcastInDim S4000000 ![] bcast_S_S4000000 (constantI S_ 32 0#32)))
          (cmpi .slt a (broadcastInDim S4000000 ![] bcast_S_S4000000 (constantI S_ 32 2097152#32))))
        init reducesTo_S4000000_S_d0 h_S_ ValueIdx.ix0 = 1#1) : InRange a := by
  intro n
  -- the rank-0 result of a reduction over all axes has one index
  haveI : Subsingleton S_.Idx := ⟨fun a b => funext fun d => d.elim0⟩
  have hn := Host.reduce_andi_all _ _ _ _ _ e n
  change IntOp.andi (IntOp.cmpi .sge (a n) 0#32) (IntOp.cmpi .slt (a n) 2097152#32) = 1#1 at hn
  obtain ⟨p, q⟩ := IntOp.andi_eq_one.1 hn
  exact toNat_lt_of_signed_range _ p q

end

/-- Under the precondition both index lists are in range. -/
theorem inRange_of_pre {F : FTy → Type} [FloatOps F] [Cert.Pre_finite_inputs.Facts]
    (a0 : FVec F Cert.Pre_finite_inputs.S4000000x3 .f32) (a1 : IVec Cert.Pre_finite_inputs.S4000000 32)
    (a2 : FVec F Cert.Pre_finite_inputs.S4000000x3 .f32) (a3 : IVec Cert.Pre_finite_inputs.S4000000 32)
    (a4 a5 a6 : FVec F Cert.Pre_finite_inputs.S128 .f32) (a7 : FVec F Cert.Pre_finite_inputs.S4 .f32)
    (h : Cert.Pre_finite_inputs.fn (F := F) a0 a1 a2 a3 a4 a5 a6 a7 = fun _ => 1#1) :
    InRange a1 ∧ InRange a3 := by
  -- the precondition's one entry, unfolded into its chain of scalar `and`s: the last two conjuncts are the index lists'
  have e := congrFun h ValueIdx.ix0
  dsimp only [Cert.Pre_finite_inputs.fn, Cert.Pre_finite_inputs.fn_part1, Cert.Pre_finite_inputs.fn_part2] at e
  change IntOp.andi _ _ = 1#1 at e
  obtain ⟨e', h3⟩ := IntOp.andi_eq_one.1 e
  change IntOp.andi _ _ = 1#1 at e'
  obtain ⟨-, h1⟩ := IntOp.andi_eq_one.1 e'
  exact ⟨inRange_of_all a1 _ h1, inRange_of_all a3 _ h3⟩

end Cert.Quadric

end
-- ==== Proof.lean ====
/-
  A quadric per cell of a 128 x 128 x 128 grid, sampled at scattered points: for one stream of points the
  quadric's value, for another the unit normal of its level set. The kernel walks the two streams in blocks of
  1000 x 128 points and reads each point's three quadratic coefficients from three 128-entry tables by the
  three 7-bit fields of the point's flat cell index; the reference builds the table of all 128^3 cells'
  seven coefficients and takes each point's row. Where every cell index lies in [0, 128^3) the two agree, as
  extended reals, entry by entry: row w of the reference's table IS (xl (w / 128^2), yl ((w / 128) mod 128),
  zl (w mod 128), off), and the two programs then do the same arithmetic up to the grouping of two sums, which
  is free on the extended reals (no cancellation and no distributivity is used, so finiteness of the inputs
  plays no part). Outside that range the reference clamps the row while the kernel keeps the low 21 bits, so
  the index range is the claim's domain.

  The frames: each program runs to the end and leaves its eight arguments as launched (the two kernel programs
  by the launch's proof data, the reference by its run). The idealized kernel is the kernel's own text read
  over the extended reals: no rewrite was applied, so there is nothing to preserve.
-/
import proofs.«428591_j52295521796844_3_alg».proof.Defs
import proofs.«428591_j52295521796844_3_alg».proof.Proof.Gen.Kernel
import proofs.«428591_j52295521796844_3_alg».proof.Proof.Gen.KernelIdeal
import proofs.«428591_j52295521796844_3_alg».proof.Proof.Gen.ReferenceIdeal
import proofs.«428591_j52295521796844_3_alg».proof.Proof.Gen.Pre_finite_inputs
import proofs.«428591_j52295521796844_3_alg».proof.Proof.Gen.ReferenceIdeal.Run
import proofs.«428591_j52295521796844_3_alg».proof.Proof.Gen.ReferenceIdeal.Read
import proofs.«428591_j52295521796844_3_alg».proof.Proof.FrameK
import proofs.«428591_j52295521796844_3_alg».proof.Proof.FrameKI
import proofs.«428591_j52295521796844_3_alg».proof.Proof.KernelValue
import proofs.«428591_j52295521796844_3_alg».proof.Proof.RefValue
import proofs.«428591_j52295521796844_3_alg».proof.Proof.PreIdx
import Idealize.ShloMosaic.Adequacy
import Idealize.ShloMosaic.Init

noncomputable section

namespace Cert.Proof

open Idealize.ShloMosaic Idealize.SL.Sem

/-- The printed kernel runs and keeps its arguments. -/
theorem frame_k : Cert.frame_Kernel := fun m ρ _ => Cert.Kernel.Hand.frame m ρ

/-- The idealized kernel runs and keeps its arguments. -/
theorem frame_ki : Cert.frame_KernelIdeal := fun m ρ _ => Cert.KernelIdeal.Hand.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, in range by the precondition, both programs end at the quadric's
    values and the unit normals of the kernel's arguments. -/
theorem algebraic : Cert.algebraic_KernelIdeal_ReferenceIdeal := by
  intro m ρ m' ρ' hpre hagree
  have hin : ∀ c : Dev Cert.KernelIdeal.nD,
      Cert.Quadric.InRange (m ((c.tc : Thread Cert.KernelIdeal.nD Cert.KernelIdeal.τ).loc Cert.KernelIdeal.main_arg1))
      ∧ Cert.Quadric.InRange (m ((c.tc : Thread Cert.KernelIdeal.nD Cert.KernelIdeal.τ).loc Cert.KernelIdeal.main_arg3)) :=
    fun c => Cert.Quadric.inRange_of_pre _ _ _ _ _ _ _ _ (hpre c)
  refine ⟨_, _, Cert.KernelIdeal.Hand.run_value m ρ hin, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v26_eq, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.sdf_eq _ _ _ _ _ _ (hin c).2
  · rw [(h c).2.1, Cert.ReferenceIdeal.Read.val_main_v47_eq, (hagree c).1, (hagree c).2.1, (hagree c).2.2.2.2.1,
      (hagree c).2.2.2.2.2.1, (hagree c).2.2.2.2.2.2.1, (hagree c).2.2.2.2.2.2.2]
    exact Cert.ReferenceIdeal.RefValue.normal_eq _ _ _ _ _ _ (hin c).1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
